-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x128 : Shape := ⟨3, ![128, 256, 128]⟩
abbrev S128x256x256 : Shape := ⟨3, ![128, 256, 256]⟩
abbrev S128x256 : Shape := ⟨2, ![128, 256]⟩
abbrev S1x256 : Shape := ⟨2, ![1, 256]⟩
abbrev S_ : Shape := ⟨0, ![]⟩

class Facts : Prop where
  bcast_S_S128x256x128 : S_.BroadcastsInDim S128x256x128 (![] : Fin 0 → Fin S128x256x128.rank)
  reducesTo_S128x256x128_S_d0_1_2 : S128x256x128.ReducesTo [0, 1, 2] S_
  h_S_ : 0 < S_.numel
  bcast_S_S128x256x256 : S_.BroadcastsInDim S128x256x256 (![] : Fin 0 → Fin S128x256x256.rank)
  reducesTo_S128x256x256_S_d0_1_2 : S128x256x256.ReducesTo [0, 1, 2] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_arg5 : FVec F S1x256 .f32) (main_arg6 : FVec F S1x256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  main_v33

def fn {F : FTy → Type} [FloatOps F] (main_arg0 : FVec F S128x256x128 .f32) (main_arg1 : FVec F S128x256x256 .f32) (main_arg2 : FVec F S128x256 .f32) (main_arg3 : FVec F S1x256 .f32) (main_arg4 : FVec F S1x256 .f32) (main_arg5 : FVec F S1x256 .f32) (main_arg6 : FVec F S1x256 .f32) : IVec S_ 1 :=
  let main_v0 : FVec F S128x256x128 .f32 := Host.absf main_arg0
  let main_cst : FVec F S_ .f32 := constant S_ .f32 0x7F800000#32
  let main_v1 : FVec F S128x256x128 .f32 := broadcastInDim S128x256x128 ![] bcast_S_S128x256x128 main_cst
  let main_v2 : IVec S128x256x128 1 := cmpf .olt main_v0 main_v1
  let main_c : IVec S_ 1 := constantI S_ 1 1#1
  let main_v3 : IVec S_ 1 := (fun x v => Host.reduce IntOp.andi x v reducesTo_S128x256x128_S_d0_1_2 h_S_) main_v2 main_c
  let main_v4 : FVec F S128x256x256 .f32 := Host.absf main_arg1
  let main_cst_0 : FVec F S_ .f32 := constant S_ .f32 0x7F800000#32
  let main_v5 : FVec F S128x256x256 .f32 := broadcastInDim S128x256x256 ![] bcast_S_S128x256x256 main_cst_0
  let main_v6 : IVec S128x256x256 1 := cmpf .olt main_v4 main_v5
  let main_c_1 : IVec S_ 1 := constantI S_ 1 1#1
  let main_v7 : IVec S_ 1 := (fun x v => Host.reduce IntOp.andi x v reducesTo_S128x256x256_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_v13 main_v16
-- ==== Kernel.lean ====
abbrev S128x256x128 : Shape := ⟨3, ![128, 256, 128]⟩
abbrev S128x256x256 : Shape := ⟨3, ![128, 256, 256]⟩
abbrev S128x256 : Shape := ⟨2, ![128, 256]⟩
abbrev S1x256 : Shape := ⟨2, ![1, 256]⟩
abbrev S128x1x256 : Shape := ⟨3, ![128, 1, 256]⟩
abbrev S1x256x128 : Shape := ⟨3, ![1, 256, 128]⟩
abbrev S1x256x256 : Shape := ⟨3, ![1, 256, 256]⟩
abbrev S1x1x256 : Shape := ⟨3, ![1, 1, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S8x256x256 : Shape := ⟨3, ![8, 256, 256]⟩
abbrev S8x256 : Shape := ⟨2, ![8, 256]⟩
abbrev S8x256x1 : Shape := ⟨3, ![8, 256, 1]⟩

abbrev nBuf : Space → Nat
  | .hbm => 14
  | .vmem => 21
  | .smem => 0
  | _ => 0

abbrev bufTy : (tb : Table) → Fin (tcTables nBuf tb) → BufTy
  | .hbm, ⟨0, _⟩ => ⟨S128x256x128, .f32⟩
  | .hbm, ⟨1, _⟩ => ⟨S128x256x256, .f32⟩
  | .hbm, ⟨2, _⟩ => ⟨S128x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S128x256x128, .bf16⟩
  | .hbm, ⟨8, _⟩ => ⟨S128x256x256, .bf16⟩
  | .hbm, ⟨9, _⟩ => ⟨S128x256, .bf16⟩
  | .hbm, ⟨10, _⟩ => ⟨S128x256x256, .bf16⟩
  | .hbm, ⟨11, _⟩ => ⟨S128x1x256, .f32⟩
  | .hbm, ⟨12, _⟩ => ⟨S128x1x256, .f32⟩
  | .hbm, ⟨13, _⟩ => ⟨S128x256x256, .f32⟩
  | .local _ .vmem, ⟨0, _⟩ => ⟨S1x256x128, .bf16⟩
  | .local _ .vmem, ⟨1, _⟩ => ⟨S1x256x128, .bf16⟩
  | .local _ .vmem, ⟨2, _⟩ => ⟨S1x256x256, .bf16⟩
  | .local _ .vmem, ⟨3, _⟩ => ⟨S1x256x256, .bf16⟩
  | .local _ .vmem, ⟨4, _⟩ => ⟨S128x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S8x256x256, .bf16⟩
  | .local _ .vmem, ⟨12, _⟩ => ⟨S8x256x256, .bf16⟩
  | .local _ .vmem, ⟨13, _⟩ => ⟨S128x1x256, .f32⟩
  | .local _ .vmem, ⟨14, _⟩ => ⟨S128x1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S8x256x256, .f32⟩
  | .local _ .vmem, ⟨20, _⟩ => ⟨S8x256x256, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S256x256_S256 : S256x256.Reduces [1] S256
  shapeCasts_S256_S256x1 : S256.ShapeCasts S256x1
  broadcasts_S256x1_S256x128 : S256x1.Broadcasts S256x128
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  reduces_S256x256_S256_2 : S256x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S128x1x256_S128x1x256_0_0_0 : ∀ a, (![0, 0, 0] : Fin 3 → Nat) a + S128x1x256.size a ≤ S128x1x256.size a
  h_S128x1x256 : 0 < S128x1x256.numel
  shapeCasts_S128x1x256_S128x1x256 : S128x1x256.ShapeCasts S128x1x256
  reduces_S128x1x256_S1x256 : S128x1x256.Reduces [0] S1x256
  inb_S1x256_S1x256_0_0 : ∀ a, (![0, 0] : Fin 2 → Nat) a + S1x256.size a ≤ S1x256.size a
  h_S1x256 : 0 < S1x256.numel
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  broadcasts_S1x1x256_S8x256x256 : S1x1x256.Broadcasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  dot_S256x256_S256x128_S256x128_1_0_0_1_n_n_wf : DotDims.WF S256x256 S256x128 S256x128 [1] [0] [0] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S128x256x128.size a
  hwx0_0 : ∀ i : grid0.Coords, EltTy.bits .bf16 = 32 ∨ (Rect.block (s := S128x256x128) S1x256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S128x256x256.size a
  hwx0_1 : ∀ i : grid0.Coords, EltTy.bits .bf16 = 32 ∨ (Rect.block (s := S128x256x256) S1x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S128x256x256.size a
  hwx0_3 : ∀ i : grid0.Coords, EltTy.bits .bf16 = 32 ∨ (Rect.block (s := S128x256x256) S1x256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S128x1x256.size a
  hwx0_4 : ∀ i : grid0.Coords, EltTy.bits .f32 = 32 ∨ (Rect.block (s := S128x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S128x1x256.size a
  hwx0_5 : ∀ i : grid0.Coords, EltTy.bits .f32 = 32 ∨ (Rect.block (s := S128x1x256) S1x1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x256.size a ≤ S128x256x256.size a
  hwx1_0 : ∀ i : grid1.Coords, EltTy.bits .bf16 = 32 ∨ (Rect.block (s := S128x256x256) S8x256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1x256.size a ≤ S128x1x256.size a
  hwx1_1 : ∀ i : grid1.Coords, EltTy.bits .f32 = 32 ∨ (Rect.block (s := S128x1x256) S128x1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1x256.size a ≤ S128x1x256.size a
  hwx1_2 : ∀ i : grid1.Coords, EltTy.bits .f32 = 32 ∨ (Rect.block (s := S128x1x256) S128x1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x256x256.size a ≤ S128x256x256.size a
  hwx1_7 : ∀ i : grid1.Coords, EltTy.bits .f32 = 32 ∨ (Rect.block (s := S128x256x256) S8x256x256.size (cc1_transform_7 i) (hinb1_7 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_v0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S8x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S128x1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S128x1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S8x256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S128x256x128 : Shape := ⟨3, ![128, 256, 128]⟩
abbrev S128x256x256 : Shape := ⟨3, ![128, 256, 256]⟩
abbrev S128x256 : Shape := ⟨2, ![128, 256]⟩
abbrev S1x256 : Shape := ⟨2, ![1, 256]⟩
abbrev S128x1x256 : Shape := ⟨3, ![128, 1, 256]⟩
abbrev S1x256x128 : Shape := ⟨3, ![1, 256, 128]⟩
abbrev S1x256x256 : Shape := ⟨3, ![1, 256, 256]⟩
abbrev S1x1x256 : Shape := ⟨3, ![1, 1, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 21
  | .smem => 0
  | _ => 0

abbrev bufTy : (tb : Table) → Fin (tcTables nBuf tb) → BufTy
  | .hbm, ⟨0, _⟩ => ⟨S128x256x128, .f32⟩
  | .hbm, ⟨1, _⟩ => ⟨S128x256x256, .f32⟩
  | .hbm, ⟨2, _⟩ => ⟨S128x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S128x256x256, .f32⟩
  | .hbm, ⟨8, _⟩ => ⟨S128x1x256, .f32⟩
  | .hbm, ⟨9, _⟩ => ⟨S128x1x256, .f32⟩
  | .hbm, ⟨10, _⟩ => ⟨S128x256x256, .f32⟩
  | .local _ .vmem, ⟨0, _⟩ => ⟨S1x256x128, .f32⟩
  | .local _ .vmem, ⟨1, _⟩ => ⟨S1x256x128, .f32⟩
  | .local _ .vmem, ⟨2, _⟩ => ⟨S1x256x256, .f32⟩
  | .local _ .vmem, ⟨3, _⟩ => ⟨S1x256x256, .f32⟩
  | .local _ .vmem, ⟨4, _⟩ => ⟨S128x256, .f32⟩
  | .local _ .vmem, ⟨5, _⟩ => ⟨S1x256x256, .f32⟩
  | .local _ .vmem, ⟨6, _⟩ => ⟨S1x256x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x256x256, .f32⟩
  | .local _ .vmem, ⟨12, _⟩ => ⟨S1x256x256, .f32⟩
  | .local _ .vmem, ⟨13, _⟩ => ⟨S128x1x256, .f32⟩
  | .local _ .vmem, ⟨14, _⟩ => ⟨S128x1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256x256, .f32⟩
  | .local _ .vmem, ⟨20, _⟩ => ⟨S1x256x256, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S128x256_S128x256_0_0 : ∀ a, (![0, 0] : Fin 2 → Nat) a + S128x256.size a ≤ S128x256.size a
  h_S128x256 : 0 < S128x256.numel
  reduces_S256x256_S256 : S256x256.Reduces [1] S256
  shapeCasts_S256_S256x1 : S256.ShapeCasts S256x1
  broadcasts_S256x1_S256x128 : S256x1.Broadcasts S256x128
  shapeCasts_S256x256_S1x256x256 : S256x256.ShapeCasts S1x256x256
  reduces_S256x256_S256_2 : S256x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S128x1x256_S128x1x256_0_0_0 : ∀ a, (![0, 0, 0] : Fin 3 → Nat) a + S128x1x256.size a ≤ S128x1x256.size a
  h_S128x1x256 : 0 < S128x1x256.numel
  shapeCasts_S128x1x256_S128x1x256 : S128x1x256.ShapeCasts S128x1x256
  reduces_S128x1x256_S1x256 : S128x1x256.Reduces [0] S1x256
  broadcasts_S1x256_S256x256 : S1x256.Broadcasts S256x256
  inb_S1x256_S1x256_0_0 : ∀ a, (![0, 0] : Fin 2 → Nat) a + S1x256.size a ≤ S1x256.size a
  h_S1x256 : 0 < S1x256.numel
  broadcasts_S256x1_S256x256 : S256x1.Broadcasts S256x256
  dot_S256x256_S256x128_S256x128_1_0_0_1_n_n_wf : DotDims.WF S256x256 S256x128 S256x128 [1] [0] [0] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S128x256x128.size a
  hwx0_0 : ∀ i : grid0.Coords, EltTy.bits .f32 = 32 ∨ (Rect.block (s := S128x256x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S128x256x256.size a
  hwx0_1 : ∀ i : grid0.Coords, EltTy.bits .f32 = 32 ∨ (Rect.block (s := S128x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S128x256x256.size a
  hwx0_3 : ∀ i : grid0.Coords, EltTy.bits .f32 = 32 ∨ (Rect.block (s := S128x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S128x1x256.size a
  hwx0_4 : ∀ i : grid0.Coords, EltTy.bits .f32 = 32 ∨ (Rect.block (s := S128x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S128x1x256.size a
  hwx0_5 : ∀ i : grid0.Coords, EltTy.bits .f32 = 32 ∨ (Rect.block (s := S128x1x256) S1x1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S128x256x256.size a
  hwx1_0 : ∀ i : grid1.Coords, EltTy.bits .f32 = 32 ∨ (Rect.block (s := S128x256x256) S1x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1x256.size a ≤ S128x1x256.size a
  hwx1_1 : ∀ i : grid1.Coords, EltTy.bits .f32 = 32 ∨ (Rect.block (s := S128x1x256) S128x1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1x256.size a ≤ S128x1x256.size a
  hwx1_2 : ∀ i : grid1.Coords, EltTy.bits .f32 = 32 ∨ (Rect.block (s := S128x1x256) S128x1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x256.size a ≤ S128x256x256.size a
  hwx1_7 : ∀ i : grid1.Coords, EltTy.bits .f32 = 32 ∨ (Rect.block (s := S128x256x256) S1x256x256.size (cc1_transform_7 i) (hinb1_7 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S128x1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S128x1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.Spec.lean ====
/-
  The mathematics of one graph-convolution layer followed by two normalisations, over the extended reals, as
  functions of coordinates.

  For one graph with adjacency A [256, 256], features X [256, 128] and weights W [128, 256]:
  deg n = Σₖ A n k, d n = 1/√(deg n) where deg n > 0 and 0 elsewhere, and the convolution is
  conv n o = Σ_f ((Σₖ A n k · (X k f · d k)) · d n) · W f o.  Over the 128 graphs of a batch, P b n o is the
  convolution of graph b, S b o = Σₙ P b n o and Q b o = Σₙ (P b n o)².

  The batch normalisation takes, per output feature o, mean o = (Σ_b S b o) · 2⁻¹⁵, the second moment
  (Σ_b Q b o) · 2⁻¹⁵, var o = second moment − mean², r o = 1/√(var o + ε), and is written in two ways:
  folded,  P · (γ · r) + (β − mean · (γ · r)),  and plain,  ((P − mean) · r) · γ + β.
  The layer normalisation of an array Y over its last axis (256 entries): μ = (Σ Y)/256, v = (Σ (Y − μ)²)/256,
  ((Y − μ) · 1/√(v + ε)) · γ' + β'.
-/
import Idealize.ShloMosaic.PureOps.Ideal
import Idealize.ShloMosaic.Lib.ValueIdx

noncomputable section

namespace Cert.Gcn

open Idealize.ShloMosaic Idealize.ShloMosaic.ValueIdx

/-! ## Arrays and functions of coordinates -/

/-- A rank-3 array read at three coordinates. -/
def at3 {a b c : ℕ} (x : (⟨3, ![a, b, c]⟩ : Shape).Idx → EReal) (i : Fin a) (j : Fin b) (k : Fin c) : EReal := x (ix3 i j k)

/-- A rank-2 array read at two coordinates. -/
def at2 {a b : ℕ} (x : (⟨2, ![a, b]⟩ : Shape).Idx → EReal) (i : Fin a) (j : Fin b) : EReal := x (ix2 i j)

/-- A [1, b] array read at its one row. -/
def row {b : ℕ} (x : (⟨2, ![1, b]⟩ : Shape).Idx → EReal) (j : Fin b) : EReal := x (ix2 (0 : Fin 1) j)

/-- An [a, 1, c] array read at its one middle coordinate. -/
def mid {a c : ℕ} (x : (⟨3, ![a, 1, c]⟩ : Shape).Idx → EReal) (i : Fin a) (k : Fin c) : EReal := x (ix3 i (0 : Fin 1) k)

/-- A function of three coordinates as a rank-3 array. -/
def arr3 {a b c : ℕ} (f : Fin a → Fin b → Fin c → EReal) : (⟨3, ![a, b, c]⟩ : Shape).Idx → EReal :=
  fun j => f (j 0) (j 1) (j 2)

theorem arr3_ix3 {a b c : ℕ} (f : Fin a → Fin b → Fin c → EReal) (i : Fin a) (j : Fin b) (k : Fin c) :
    arr3 f (ix3 i j k) = f i j k := rfl

theorem at3_arr3 {a b c : ℕ} (f : Fin a → Fin b → Fin c → EReal) : at3 (arr3 f) = f := rfl

theorem mid_arr3 {a c : ℕ} (f : Fin a → Fin c → EReal) : mid (arr3 fun i (_ : Fin 1) k => f i k) = f := rfl

/-! ## The constants -/

/-- 2⁻¹⁵, one over the number of rows (128 · 256) a batch statistic averages. -/
def invCount : EReal := Ideal.ofBits .f32 0x38000000#32
/-- The stabiliser ε of both normalisations (the binary32 value nearest 10⁻⁵). -/
def eps : EReal := Ideal.ofBits .f32 0x3727C5AC#32
/-- 256, the length of a feature row. -/
def rowLen : EReal := Ideal.ofBits .f32 0x43800000#32

/-! ## One graph -/

/-- The degree of node n: the sum of row n of the adjacency. -/
def deg (A : Fin 256 → Fin 256 → EReal) (n : Fin 256) : EReal := ∑ k : Fin 256, A n k

/-- 1/√deg where the degree is positive, 0 elsewhere. -/
def dinv (A : Fin 256 → Fin 256 → EReal) (n : Fin 256) : EReal :=
  Scalar.select (Ideal.cmp .ogt (deg A n) (Ideal.ofBits .f32 0x00000000#32)) (Ideal.rsqrt (deg A n)) (Ideal.ofBits .f32 0x00000000#32)

/-- The symmetrically normalised adjacency applied to the features: Σₖ A n k · (X k f · d k), times d n. -/
def prop (X : Fin 256 → Fin 128 → EReal) (A : Fin 256 → Fin 256 → EReal) (n : Fin 256) (f : Fin 128) : EReal :=
  (∑ k : Fin 256, A n k * (X k f * dinv A k)) * dinv A n

/-- The convolution of one graph. -/
def conv (X : Fin 256 → Fin 128 → EReal) (A : Fin 256 → Fin 256 → EReal) (W : Fin 128 → Fin 256 → EReal)
    (n o : Fin 256) : EReal :=
  ∑ f : Fin 128, prop X A n f * W f o

/-! ## The batch -/

/-- The convolution of every graph of the batch. -/
def pre (x : Fin 128 → Fin 256 → Fin 128 → EReal) (adj : Fin 128 → Fin 256 → Fin 256 → EReal)
    (w : Fin 128 → Fin 256 → EReal) (b : Fin 128) (n o : Fin 256) : EReal :=
  conv (x b) (adj b) w n o

/-- Per graph and feature, the sum over the nodes. -/
def colSum (P : Fin 128 → Fin 256 → Fin 256 → EReal) (b : Fin 128) (o : Fin 256) : EReal := ∑ n : Fin 256, P b n o

/-- Per graph and feature, the sum of the squares over the nodes. -/
def colSumSq (P : Fin 128 → Fin 256 → Fin 256 → EReal) (b : Fin 128) (o : Fin 256) : EReal :=
  ∑ n : Fin 256, P b n o * P b n o

/-! ## The two normalisations -/

/-- The batch mean of feature o from the per-graph sums. -/
def mean (S : Fin 128 → Fin 256 → EReal) (o : Fin 256) : EReal := (∑ b : Fin 128, S b o) * invCount

/-- The batch variance of feature o: the second moment less the squared mean. -/
def var (S Q : Fin 128 → Fin 256 → EReal) (o : Fin 256) : EReal :=
  (∑ b : Fin 128, Q b o) * invCount - mean S o * mean S o

/-- 1/√(var + ε). -/
def rstd (S Q : Fin 128 → Fin 256 → EReal) (o : Fin 256) : EReal := Ideal.rsqrt (var S Q o + eps)

/-- The batch normalisation folded into one scale and one shift per feature. -/
def bnFolded (P : Fin 128 → Fin 256 → Fin 256 → EReal) (S Q : Fin 128 → Fin 256 → EReal) (g bb : Fin 256 → EReal)
    (b : Fin 128) (n o : Fin 256) : EReal :=
  P b n o * (g o * rstd S Q o) + (bb o - mean S o * (g o * rstd S Q o))

/-- The batch normalisation as centre, scale, affine. -/
def bnPlain (P : Fin 128 → Fin 256 → Fin 256 → EReal) (S Q : Fin 128 → Fin 256 → EReal) (g bb : Fin 256 → EReal)
    (b : Fin 128) (n o : Fin 256) : EReal :=
  ((P b n o - mean S o) * rstd S Q o) * g o + bb o

/-- The mean of a feature row. -/
def rowMean (Y : Fin 128 → Fin 256 → Fin 256 → EReal) (b : Fin 128) (n : Fin 256) : EReal :=
  Ideal.div (∑ k : Fin 256, Y b n k) rowLen

/-- The variance of a feature row. -/
def rowVar (Y : Fin 128 → Fin 256 → Fin 256 → EReal) (b : Fin 128) (n : Fin 256) : EReal :=
  Ideal.div (∑ k : Fin 256, (Y b n k - rowMean Y b n) * (Y b n k - rowMean Y b n)) rowLen

/-- The layer normalisation over the last axis with its affine map. -/
def layerNorm (Y : Fin 128 → Fin 256 → Fin 256 → EReal) (lg lb : Fin 256 → EReal)
    (b : Fin 128) (n o : Fin 256) : EReal :=
  ((Y b n o - rowMean Y b n) * Ideal.rsqrt (rowVar Y b n + eps)) * lg o + lb o

/-- The whole second pass with the folded batch normalisation. -/
def outFolded (P : Fin 128 → Fin 256 → Fin 256 → EReal) (S Q : Fin 128 → Fin 256 → EReal) (g bb lg lb : Fin 256 → EReal) :
    Fin 128 → Fin 256 → Fin 256 → EReal :=
  layerNorm (bnFolded P S Q g bb) lg lb

/-- The whole second pass with the plain batch normalisation. -/
def outPlain (P : Fin 128 → Fin 256 → Fin 256 → EReal) (S Q : Fin 128 → Fin 256 → EReal) (g bb lg lb : Fin 256 → EReal) :
    Fin 128 → Fin 256 → Fin 256 → EReal :=
  layerNorm (bnPlain P S Q g bb) lg lb

end Cert.Gcn

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.KConv.lean ====
/-
  First pass of the kernel's program: what the three output arrays of the convolution region hold after the region
  has run over its 128 grid points, as functions of the three arrays the region reads (features, adjacency,
  weights) as it finds them.

  Point t of the grid is graph t.  Its body reads block t of the features X [256, 128] and of the adjacency
  A [256, 256] and the whole weights W [128, 256], and computes the degree column deg n = Σₖ A n k, the column
  d n = 1/√(deg n) where the degree is positive and 0 elsewhere, the product Σₖ A n k · (X k f · d k) scaled by d n,
  and its product with W: the convolution of graph t.  It stores the convolution in block t of the first output,
  its column sums in row t of the second and the column sums of its squares in row t of the third.  The blocks of
  each output tile its array, so each array ends at one function of the three inputs.
-/
import proofs.«119475_g2000006224315535_pallasbulk_996_2_alg».proof.Proof.Gen.KernelIdeal.Frame
import proofs.«119475_g2000006224315535_pallasbulk_996_2_alg».proof.Proof.Spec
import proofs.«119475_g2000006224315535_pallasbulk_996_2_alg».proof.Proof.LibTile
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.Gcn

/-! ## One graph's tiles read at coordinates -/

/-- An [M, K] by [K, N] product into the zero accumulator, the operands of any two formats: at (p, q), the sum
    over the K contracted coordinates of the left operand at (p, x) times the right at (x, q). -/
theorem matmul_at {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact Cert.Tile.lhs_plain_0 _ _
      | ⟨1, _⟩ => exact (Cert.Tile.lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (Cert.Tile.rhs_plain_0 _ _).trans hk
      | ⟨1, _⟩ => exact Cert.Tile.rhs_plain_1 _ _)
  rw [el, er]

/-- The two contractions of the body are the plain ones: rows of the left operand against columns of the right. -/
theorem dotProp_eq : dot_S256x256_S256x128_S256x128_1_0_0_1_n_n = DotDims.plain 256 256 128 := rfl
theorem dotConv_eq : dot_S256x128_S128x256_S256x256_1_0_0_1_n_n = DotDims.plain 256 128 256 := rfl

/-- The column the body scales by, from the adjacency tile: at (n, u), the sum of row n is the degree of node n,
    and the entry is 1/√ of it where it is positive, 0 elsewhere. -/
theorem dinvCol_at (A : FVec Ideal S256x256 .bf16) (n : Fin 256) (u : Fin 1) :
    select
        (cmpf .ogt
          (shapeCast S256x1 (multiReduction (F := Ideal) .add [1] S256 (extf .f32 A bitsLt_bf16_f32) 0x00000000#32 reduces_S256x256_S256 (.inl rfl) rfl) shapeCasts_S256_S256x1)
          (broadcast S256x1 (Scalar.ofBits (F := Ideal) .f32 0x00000000#32)))
        (rsqrt (shapeCast S256x1 (multiReduction (F := Ideal) .add [1] S256 (extf .f32 A bitsLt_bf16_f32) 0x00000000#32 reduces_S256x256_S256 (.inl rfl) rfl) shapeCasts_S256_S256x1))
        (broadcast S256x1 (Scalar.ofBits (F := Ideal) .f32 0x00000000#32)) (ix2 n u)
      = dinv (at2 A) n :=
  congrArg (fun d => Scalar.select (Ideal.cmp .ogt d (Ideal.ofBits .f32 0x00000000#32)) (Ideal.rsqrt d) (Ideal.ofBits .f32 0x00000000#32))
    (Cert.Tile.rowSumCol_apply (extf .f32 A bitsLt_bf16_f32) reduces_S256x256_S256 (.inl rfl) rfl shapeCasts_S256_S256x1 n u)

/-- The adjacency applied to the features scaled by a column d, the result scaled by d again: at (n, f),
    (Σₖ A n k · (X k f · d k)) · d n. -/
theorem prop_at (A : FVec Ideal S256x256 .bf16) (X : FVec Ideal S256x128 .bf16) (d : FVec Ideal S256x1 .f32)
    (n : Fin 256) (f : Fin 128) :
    mulf
        (matmul (F := Ideal) dot_S256x256_S256x128_S256x128_1_0_0_1_n_n none A
          (truncf .bf16 (mulf (extf .f32 X bitsLt_bf16_f32) (broadcastTo S256x128 d broadcasts_S256x1_S256x128)) bitsLt_bf16_f32)
          (constant (F := Ideal) S256x128 .f32 0x00000000#32))
        (broadcastTo S256x128 d broadcasts_S256x1_S256x128) (ix2 n f)
      = (∑ k : Fin 256, A (ix2 n k) * (X (ix2 k f) * d (ix2 k (0 : Fin 1)))) * d (ix2 n (0 : Fin 1)) := by
  refine congrArg₂ (· * ·) ?_ (Cert.Tile.broadcastTo_a1_ab_apply d broadcasts_S256x1_S256x128 n f)
  refine (matmul_at none A
    (truncf .bf16 (mulf (extf .f32 X bitsLt_bf16_f32) (broadcastTo S256x128 d broadcasts_S256x1_S256x128)) bitsLt_bf16_f32) n f).trans ?_
  exact Finset.sum_congr rfl fun k _ => congrArg (A (ix2 n k) * ·)
    (congrArg (X (ix2 k f) * ·) (Cert.Tile.broadcastTo_a1_ab_apply d broadcasts_S256x1_S256x128 k f))

/-- A [256, 128] tile against the weights: at (n, o), Σ_f P n f · W f o. -/
theorem conv_at (P : FVec Ideal S256x128 .f32) (W : FVec Ideal S128x256 .bf16) (n o : Fin 256) :
    matmul (F := Ideal) dot_S256x128_S128x256_S256x256_1_0_0_1_n_n none (truncf .bf16 P bitsLt_bf16_f32) W
        (constant (F := Ideal) S256x256 .f32 0x00000000#32) (ix2 n o)
      = ∑ f : Fin 128, P (ix2 n f) * W (ix2 f o) :=
  matmul_at none (truncf .bf16 P bitsLt_bf16_f32) W n o

/-! ## The body's values at an index -/

/-- The body's [256, 256] value is the convolution of the one graph its blocks hold. -/
theorem pay2_at (a : Vec Ideal S1x256x256 .bf16) (x : Vec Ideal S1x256x128 .bf16) (w : Vec Ideal S128x256 .bf16)
    (n o : Fin 256) :
    k0_pay2 (F := Ideal) a x w (ix2 n o) = conv (at3 x (0 : Fin 1)) (at3 a (0 : Fin 1)) (at2 w) n o := by
  have hA : ∀ p k : Fin 256, shapeCast S256x256 a shapeCasts_S1x256x256_S256x256 (ix2 p k) = at3 a (0 : Fin 1) p k :=
    fun p k => shapeCast_1ab_ab_apply a shapeCasts_S1x256x256_S256x256 p k
  have hX : ∀ (k : Fin 256) (f : Fin 128), shapeCast S256x128 x shapeCasts_S1x256x128_S256x128 (ix2 k f) = at3 x (0 : Fin 1) k f :=
    fun k f => shapeCast_1ab_ab_apply x shapeCasts_S1x256x128_S256x128 k f
  have hAA : at2 (shapeCast S256x256 a shapeCasts_S1x256x256_S256x256) = at3 a (0 : Fin 1) :=
    funext fun p => funext fun k => hA p k
  unfold k0_pay2
  refine (conv_at _ _ n o).trans ?_
  refine Finset.sum_congr rfl fun f _ => ?_
  refine congrArg₂ (· * ·) ?_ (congrFun (shapeCast_self w shapeCasts_S128x256_S128x256) (ix2 f o))
  refine (prop_at _ _ _ n f).trans ?_
  have hd : ∀ k : Fin 256, _ = dinv (at3 a (0 : Fin 1)) k := fun k =>
    (dinvCol_at (shapeCast S256x256 a shapeCasts_S1x256x256_S256x256) k (0 : Fin 1)).trans (congrArg (dinv · k) hAA)
  exact congrArg₂ (· * ·)
    (Finset.sum_congr rfl fun k _ => congrArg₂ (· * ·) (hA n k) (congrArg₂ (· * ·) (hX k f) (hd k)))
    (hd n)

/-- The stored block of the first output: the convolution, whatever the unit coordinate. -/
theorem pay3_at (a : Vec Ideal S1x256x256 .bf16) (x : Vec Ideal S1x256x128 .bf16) (w : Vec Ideal S128x256 .bf16)
    (u : Fin 1) (n o : Fin 256) :
    k0_pay3 (F := Ideal) a x w (ix3 u n o) = conv (at3 x (0 : Fin 1)) (at3 a (0 : Fin 1)) (at2 w) n o := by
  unfold k0_pay3
  exact (shapeCast_ab_1ab_apply (truncf .bf16 (k0_pay2 (F := Ideal) a x w) bitsLt_bf16_f32) shapeCasts_S256x256_S1x256x256 u n o).trans
    (pay2_at a x w n o)

/-- The stored row of the second output: per feature, the convolution summed over the nodes. -/
theorem pay4_at (a : Vec Ideal S1x256x256 .bf16) (x : Vec Ideal S1x256x128 .bf16) (w : Vec Ideal S128x256 .bf16)
    (u v : Fin 1) (o : Fin 256) :
    k0_pay4 (F := Ideal) a x w (ix3 u v o) = ∑ n : Fin 256, conv (at3 x (0 : Fin 1)) (at3 a (0 : Fin 1)) (at2 w) n o := by
  unfold k0_pay4
  refine (shapeCast_ab_1ab_apply _ shapeCasts_S1x256_S1x1x256 u v o).trans ?_
  refine (shapeCast_a_1a_apply _ shapeCasts_S256_S1x256 v o).trans ?_
  refine (Cert.Tile.colSum_apply (k0_pay2 (F := Ideal) a x w) reduces_S256x256_S256_2 (.inl rfl) rfl o).trans ?_
  exact Finset.sum_congr rfl fun n _ => pay2_at a x w n o

/-- The stored row of the third output: per feature, the squares of the convolution summed over the nodes. -/
theorem pay5_at (a : Vec Ideal S1x256x256 .bf16) (x : Vec Ideal S1x256x128 .bf16) (w : Vec Ideal S128x256 .bf16)
    (u v : Fin 1) (o : Fin 256) :
    k0_pay1 (F := Ideal) (k0_pay5 (F := Ideal) a x w) (ix3 u v o)
      = ∑ n : Fin 256, conv (at3 x (0 : Fin 1)) (at3 a (0 : Fin 1)) (at2 w) n o * conv (at3 x (0 : Fin 1)) (at3 a (0 : Fin 1)) (at2 w) n o := by
  unfold k0_pay1 k0_pay5
  refine (shapeCast_ab_1ab_apply _ shapeCasts_S1x256_S1x1x256 u v o).trans ?_
  refine (shapeCast_a_1a_apply _ shapeCasts_S256_S1x256 v o).trans ?_
  refine (Cert.Tile.colSum_apply (mulf (k0_pay2 (F := Ideal) a x w) (k0_pay2 (F := Ideal) a x w)) reduces_S256x256_S256_2 (.inl rfl) rfl o).trans ?_
  exact Finset.sum_congr rfl fun n _ => congrArg₂ (· * ·) (pay2_at a x w n o) (pay2_at a x w n o)

/-- The convolution depends on its three arguments only. -/
theorem conv_congr {X X' : Fin 256 → Fin 128 → EReal} {A A' : Fin 256 → Fin 256 → EReal} {W W' : Fin 128 → Fin 256 → EReal}
    (hX : X = X') (hA : A = A') (hW : W = W') (n o : Fin 256) : conv X A W n o = conv X' A' W' n o := by
  subst hX hA hW; rfl

/-! ## The grid: which block of which array each point reads and writes -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps of the three inputs, decided over the 128 points: point t reads block (t, 0, 0) of the
    features and of the adjacency, and the one block of the weights. -/
theorem idx_in : ∀ t : Fin cfg0.N,
      win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- Those of the three outputs: point t writes block (t, 0, 0) of each. -/
theorem idx_pre : ∀ t : Fin cfg0.N,
    win0_3.index t (0 : Fin 3) = t.val ∧ win0_3.index t (1 : Fin 3) = 0 ∧ win0_3.index t (2 : Fin 3) = 0 :=
  (by decide +kernel : ∀ t : Fin grid0.N, _)
theorem idx_sum : ∀ t : Fin cfg0.N,
    win0_4.index t (0 : Fin 3) = t.val ∧ win0_4.index t (1 : Fin 3) = 0 ∧ win0_4.index t (2 : Fin 3) = 0 :=
  (by decide +kernel : ∀ t : Fin grid0.N, _)
theorem idx_sumsq : ∀ t : Fin cfg0.N,
    win0_5.index t (0 : Fin 3) = t.val ∧ win0_5.index t (1 : Fin 3) = 0 ∧ win0_5.index t (2 : Fin 3) = 0 :=
  (by decide +kernel : ∀ t : Fin grid0.N, _)

/-- Every graph is some point's. -/
theorem point_of (b : Fin 128) : ∃ t : Fin cfg0.N, t.val = b.val := ⟨⟨b.val, lt_of_lt_of_eq b.isLt N_0.symm⟩, rfl⟩

/-- The graph a grid point works on. -/
def gph (t : Fin cfg0.N) : Fin 128 := ⟨t.val, lt_of_lt_of_eq t.isLt N_0⟩

theorem gph_val (t : Fin cfg0.N) : (gph t).val = t.val := rfl

variable (V : (c : Dev nD) → (b : Ref sig .tc) → Buf (Elt Ideal) ((c : Thread nD τ).loc b))

/-! ## The blocks a point reads -/

/-- Point t's feature block is graph t's features. -/
theorem featBlk (c : Dev nD) (t : Fin cfg0.N) :
    at3 (iblk0 V c 0 t : Vec Ideal S1x256x128 .bf16) (0 : Fin 1) = at3 (V c main_v0 : S128x256x128.Idx → EReal) (gph t) := by
  obtain ⟨e0, e1, e2, -⟩ := idx_in t
  funext k f
  show (iblk0 V c 0 t : Vec Ideal S1x256x128 .bf16) (ix3 (0 : Fin 1) k f) = (V c main_v0 : S128x256x128.Idx → EReal) (ix3 (gph t) k f)
  unfold iblk0
  rw [View.read_apply]
  show V c main_v0 _ = V c main_v0 _
  congr 1
  funext a
  apply Fin.ext
  match a with
  | ⟨0, _⟩ => show win0_0.index t (0 : Fin 3) * 1 + 1 * 0 = t.val; omega
  | ⟨1, _⟩ => show win0_0.index t (1 : Fin 3) * 256 + 1 * k.val = k.val; omega
  | ⟨2, _⟩ => show win0_0.index t (2 : Fin 3) * 128 + 1 * f.val = f.val; omega

/-- Point t's adjacency block is graph t's adjacency. -/
theorem adjBlk (c : Dev nD) (t : Fin cfg0.N) :
    at3 (iblk0 V c 1 t : Vec Ideal S1x256x256 .bf16) (0 : Fin 1) = at3 (V c main_v1 : S128x256x256.Idx → EReal) (gph t) := by
  obtain ⟨-, -, -, e0, e1, e2, -⟩ := idx_in t
  funext n k
  show (iblk0 V c 1 t : Vec Ideal S1x256x256 .bf16) (ix3 (0 : Fin 1) n k) = (V c main_v1 : S128x256x256.Idx → EReal) (ix3 (gph t) n k)
  unfold iblk0
  rw [View.read_apply]
  show V c main_v1 _ = V c main_v1 _
  congr 1
  funext a
  apply Fin.ext
  match a with
  | ⟨0, _⟩ => show win0_1.index t (0 : Fin 3) * 1 + 1 * 0 = t.val; omega
  | ⟨1, _⟩ => show win0_1.index t (1 : Fin 3) * 256 + 1 * n.val = n.val; omega
  | ⟨2, _⟩ => show win0_1.index t (2 : Fin 3) * 256 + 1 * k.val = k.val; omega

/-- Every point's weight block is the whole weights. -/
theorem wBlk (c : Dev nD) (t : Fin cfg0.N) :
    at2 (iblk0 V c 2 t : Vec Ideal S128x256 .bf16) = at2 (V c main_v2 : S128x256.Idx → EReal) := by
  obtain ⟨-, -, -, -, -, -, e0, e1⟩ := idx_in t
  funext f o
  show (iblk0 V c 2 t : Vec Ideal S128x256 .bf16) (ix2 f o) = (V c main_v2 : S128x256.Idx → EReal) (ix2 f o)
  unfold iblk0
  rw [View.read_apply]
  show V c main_v2 _ = V c main_v2 _
  congr 1
  funext a
  apply Fin.ext
  match a with
  | ⟨0, _⟩ => show win0_2.index t (0 : Fin 2) * 128 + 1 * f.val = f.val; omega
  | ⟨1, _⟩ => show win0_2.index t (1 : Fin 2) * 256 + 1 * o.val = o.val; omega

/-- The convolution of every graph, from the region's three input arrays as it finds them. -/
abbrev P (c : Dev nD) : Fin 128 → Fin 256 → Fin 256 → EReal :=
  pre (at3 (V c main_v0 : S128x256x128.Idx → EReal)) (at3 (V c main_v1 : S128x256x256.Idx → EReal)) (at2 (V c main_v2 : S128x256.Idx → EReal))

/-- The convolution of the blocks point t reads is that of graph t. -/
theorem conv_blocks (c : Dev nD) (t : Fin cfg0.N) (n o : Fin 256) :
    conv (at3 (iblk0 V c 0 t : Vec Ideal S1x256x128 .bf16) (0 : Fin 1)) (at3 (iblk0 V c 1 t : Vec Ideal S1x256x256 .bf16) (0 : Fin 1))
        (at2 (iblk0 V c 2 t : Vec Ideal S128x256 .bf16)) n o
      = P V c (gph t) n o :=
  conv_congr (featBlk V c t) (adjBlk V c t) (wBlk V c t) n o

/-! ## What each point writes back -/

/-- Point t writes block t of the convolution into the first output. -/
theorem flushed3_eq (c : Dev nD) (t : Fin cfg0.N) :
    (dat0 V c).flushed 3 t = ((cfg0.win 3).blk t).view.read (Elt Ideal) (arr3 (P V c)) := by
  show (cfg0.win 3).cut (grid0.coords t) ((dat0 V c).after 3 t) = _
  rw [after0_3]
  unfold out0_3
  rw [View.canon_unit_zero hz3]
  simp only [View.ld_unit_zero (S := S1x256x256) hz3, View.ld_unit_zero (S := S1x256x128) hz3, View.ld_unit_zero (S := S128x256) hz2]
  obtain ⟨e0, e1, e2⟩ := idx_pre t
  funext j
  obtain ⟨p, q, r, rfl⟩ : ∃ (p : Fin 1) (q r : Fin 256), j = ix3 p q r := ⟨j 0, j 1, j 2, eq_ix3 j⟩
  have hi : ((cfg0.win 3).blk t).view.emb (ix3 p q r) = ix3 (gph t) q r := funext fun a => Fin.ext (by
    match a with
    | ⟨0, _⟩ => show win0_3.index t (0 : Fin 3) * 1 + 1 * p.val = t.val; omega
    | ⟨1, _⟩ => show win0_3.index t (1 : Fin 3) * 256 + 1 * q.val = q.val; omega
    | ⟨2, _⟩ => show win0_3.index t (2 : Fin 3) * 256 + 1 * r.val = r.val; omega)
  show k0_pay3 (F := Ideal) (iblk0 V c 1 t) (iblk0 V c 0 t) (iblk0 V c 2 t) (ix3 p q r)
    = arr3 (P V c) (((cfg0.win 3).blk t).view.emb (ix3 p q r))
  rw [hi, arr3_ix3]
  exact (pay3_at (iblk0 V c 1 t) (iblk0 V c 0 t) (iblk0 V c 2 t) p q r).trans (conv_blocks V c t q r)

/-- Point t writes, into row t of the second output, the convolution of graph t summed over the nodes. -/
theorem flushed4_eq (c : Dev nD) (t : Fin cfg0.N) :
    (dat0 V c).flushed 4 t
      = ((cfg0.win 4).blk t).view.read (Elt Ideal) (arr3 (fun b (_ : Fin 1) o => colSum (P V c) b o)) := by
  show (cfg0.win 4).cut (grid0.coords t) ((dat0 V c).after 4 t) = _
  rw [after0_4]
  unfold out0_4
  rw [View.canon_unit_zero hz3]
  simp only [View.ld_unit_zero (S := S1x256x256) hz3, View.ld_unit_zero (S := S1x256x128) hz3, View.ld_unit_zero (S := S128x256) hz2]
  obtain ⟨e0, e1, e2⟩ := idx_sum t
  funext j
  obtain ⟨p, v, o, rfl⟩ : ∃ (p v : Fin 1) (o : Fin 256), j = ix3 p v o := ⟨j 0, j 1, j 2, eq_ix3 j⟩
  have hi : ((cfg0.win 4).blk t).view.emb (ix3 p v o) = ix3 (gph t) v o := funext fun a => Fin.ext (by
    match a with
    | ⟨0, _⟩ => show win0_4.index t (0 : Fin 3) * 1 + 1 * p.val = t.val; omega
    | ⟨1, _⟩ => show win0_4.index t (1 : Fin 3) * 1 + 1 * v.val = v.val; omega
    | ⟨2, _⟩ => show win0_4.index t (2 : Fin 3) * 256 + 1 * o.val = o.val; omega)
  show k0_pay4 (F := Ideal) (iblk0 V c 1 t) (iblk0 V c 0 t) (iblk0 V c 2 t) (ix3 p v o)
    = arr3 (fun b (_ : Fin 1) o => colSum (P V c) b o) (((cfg0.win 4).blk t).view.emb (ix3 p v o))
  rw [hi, arr3_ix3]
  exact (pay4_at (iblk0 V c 1 t) (iblk0 V c 0 t) (iblk0 V c 2 t) p v o).trans
    (Finset.sum_congr rfl fun n _ => conv_blocks V c t n o)

/-- Point t writes, into row t of the third output, the squares of the convolution of graph t summed over the nodes. -/
theorem flushed5_eq (c : Dev nD) (t : Fin cfg0.N) :
    (dat0 V c).flushed 5 t
      = ((cfg0.win 5).blk t).view.read (Elt Ideal) (arr3 (fun b (_ : Fin 1) o => colSumSq (P V c) b o)) := by
  show (cfg0.win 5).cut (grid0.coords t) ((dat0 V c).after 5 t) = _
  rw [after0_5]
  unfold out0_5
  rw [View.canon_unit_zero hz3]
  simp only [View.ld_unit_zero (S := S1x256x256) hz3, View.ld_unit_zero (S := S1x256x128) hz3, View.ld_unit_zero (S := S128x256) hz2]
  obtain ⟨e0, e1, e2⟩ := idx_sumsq t
  funext j
  obtain ⟨p, v, o, rfl⟩ : ∃ (p v : Fin 1) (o : Fin 256), j = ix3 p v o := ⟨j 0, j 1, j 2, eq_ix3 j⟩
  have hi : ((cfg0.win 5).blk t).view.emb (ix3 p v o) = ix3 (gph t) v o := funext fun a => Fin.ext (by
    match a with
    | ⟨0, _⟩ => show win0_5.index t (0 : Fin 3) * 1 + 1 * p.val = t.val; omega
    | ⟨1, _⟩ => show win0_5.index t (1 : Fin 3) * 1 + 1 * v.val = v.val; omega
    | ⟨2, _⟩ => show win0_5.index t (2 : Fin 3) * 256 + 1 * o.val = o.val; omega)
  show k0_pay1 (F := Ideal) (k0_pay5 (F := Ideal) (iblk0 V c 1 t) (iblk0 V c 0 t) (iblk0 V c 2 t)) (ix3 p v o)
    = arr3 (fun b (_ : Fin 1) o => colSumSq (P V c) b o) (((cfg0.win 5).blk t).view.emb (ix3 p v o))
  rw [hi, arr3_ix3]
  exact (pay5_at (iblk0 V c 1 t) (iblk0 V c 0 t) (iblk0 V c 2 t) p v o).trans
    (Finset.sum_congr rfl fun n _ => congrArg₂ (· * ·) (conv_blocks V c t n o) (conv_blocks V c t n o))

/-! ## The blocks tile each output -/

/-- An index of the first output is in point t's block iff each coordinate is in the block's range on its axis. -/
theorem mem_blk3 (t : Fin cfg0.N) (i : S128x256x256.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v3_0).slice (win0_3.rect t)).set ↔ _
  rw [View.set_slice_whole, Rect.mem_set_unit]
  exact Iff.rfl

theorem mem_blk4 (t : Fin cfg0.N) (i : S128x1x256.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_v3_1).slice (win0_4.rect t)).set ↔ _
  rw [View.set_slice_whole, Rect.mem_set_unit]
  exact Iff.rfl

theorem mem_blk5 (t : Fin cfg0.N) (i : S128x1x256.Idx) :
    i ∈ ((cfg0.win 5).blk t).view.set ↔ ∀ a : Fin 3, win0_5.index t a * S1x1x256.size a ≤ (i a).val
      ∧ (i a).val < win0_5.index t a * S1x1x256.size a + S1x1x256.size a := by
  show i ∈ ((View.whole main_v3_2).slice (win0_5.rect t)).set ↔ _
  rw [View.set_slice_whole, Rect.mem_set_unit]
  exact Iff.rfl

/-- Index (b, n, o) of the first output is in the block of the point that works on graph b. -/
theorem cover3 (i : S128x256x256.Idx) :
    ∃ t : Fin cfg0.N, (cfg0.win 3).flush t = true ∧ i ∈ ((cfg0.win 3).blk t).view.set := by
  have h1 : (i 1).val < 256 := (i 1).isLt
  have h2 : (i 2).val < 256 := (i 2).isLt
  obtain ⟨t, ht⟩ := point_of (i 0)
  obtain ⟨e0, e1, e2⟩ := idx_pre t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

theorem cover4 (i : S128x1x256.Idx) :
    ∃ t : Fin cfg0.N, (cfg0.win 4).flush t = true ∧ i ∈ ((cfg0.win 4).blk t).view.set := by
  have h1 : (i 1).val < 1 := (i 1).isLt
  have h2 : (i 2).val < 256 := (i 2).isLt
  obtain ⟨t, ht⟩ := point_of (i 0)
  obtain ⟨e0, e1, e2⟩ := idx_sum t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 256 ≤ (i 2).val ∧ (i 2).val < win0_4.index t (2 : Fin 3) * 256 + 256; omega

theorem cover5 (i : S128x1x256.Idx) :
    ∃ t : Fin cfg0.N, (cfg0.win 5).flush t = true ∧ i ∈ ((cfg0.win 5).blk t).view.set := by
  have h1 : (i 1).val < 1 := (i 1).isLt
  have h2 : (i 2).val < 256 := (i 2).isLt
  obtain ⟨t, ht⟩ := point_of (i 0)
  obtain ⟨e0, e1, e2⟩ := idx_sumsq t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 256 ≤ (i 2).val ∧ (i 2).val < win0_5.index t (2 : Fin 3) * 256 + 256; omega

/-! ## The three arrays after the region -/

/-- The first output array ends holding the convolution. -/
theorem pre_arr (c : Dev nD) :
    ((dat0 V c).arrAt 3 cfg0.N : S128x256x256.Idx → EReal) = arr3 (P V c) :=
  (dat0 V c).arrAt_eq_of_cover 3 (arr3 (P V c)) (fun t _ => flushed3_eq V c t) cover3

/-- The second output array ends holding, per graph and feature, the sum over the nodes. -/
theorem psum_arr (c : Dev nD) :
    ((dat0 V c).arrAt 4 cfg0.N : S128x1x256.Idx → EReal) = arr3 (fun b (_ : Fin 1) o => colSum (P V c) b o) :=
  (dat0 V c).arrAt_eq_of_cover 4 (arr3 (fun b (_ : Fin 1) o => colSum (P V c) b o)) (fun t _ => flushed4_eq V c t) cover4

/-- The third output array ends holding, per graph and feature, the sum of the squares over the nodes. -/
theorem psumsq_arr (c : Dev nD) :
    ((dat0 V c).arrAt 5 cfg0.N : S128x1x256.Idx → EReal) = arr3 (fun b (_ : Fin 1) o => colSumSq (P V c) b o) :=
  (dat0 V c).arrAt_eq_of_cover 5 (arr3 (fun b (_ : Fin 1) o => colSumSq (P V c) b o)) (fun t _ => flushed5_eq V c t) cover5

end Cert.KernelIdeal.ConvValue

end
-- ==== Proof.KNorm.lean ====
/-
  Second pass of the kernel's program: what the output array of the normalisation region holds after the region
  has run over its 16 grid points (8 graphs a point), as a function of the seven arrays the region reads as it
  finds them.
-/
import proofs.«119475_g2000006224315535_pallasbulk_996_2_alg».proof.Proof.Gen.KernelIdeal.Frame
import proofs.«119475_g2000006224315535_pallasbulk_996_2_alg».proof.Proof.Spec
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.NormValue

open Cert.KernelIdeal Cert.KernelIdeal.Gen Cert.Gcn

/-! ## A rank-3 tile read at coordinates: the layout operations of a keep-dimensions reduction along the last
    axis, a feature row spread over the tile, and the two sums -/

section Layout

variable {α : Type}

/-- A [1, b] row cast to [1, 1, b] reads, at (u, v, o), the row at o. -/
theorem castRow_apply {b : ℕ} (x : (⟨2, ![1, b]⟩ : Shape).Idx → α)
    (h : (⟨2, ![1, b]⟩ : Shape).ShapeCasts ⟨3, ![1, 1, b]⟩) (u v : Fin 1) (o : Fin b) :
    shapeCast ⟨3, ![1, 1, b]⟩ x h (ix3 u v o) = x (ix2 (0 : Fin 1) o) :=
  shapeCast_apply x h _ _ (by
    have hu : u.val = 0 := by omega
    have hv : v.val = 0 := by omega
    rw [Shape.rowMajor_val_three, Shape.rowMajor_val_two]
    show 0 * b + o.val = (u.val * 1 + v.val) * b + o.val
    rw [hu, hv])

/-- An [m, a] array cast to [m, a, 1] reads, at (p, n, u), the operand at (p, n). -/
theorem castCol_apply {m a : ℕ} (x : (⟨2, ![m, a]⟩ : Shape).Idx → α)
    (h : (⟨2, ![m, a]⟩ : Shape).ShapeCasts ⟨3, ![m, a, 1]⟩) (p : Fin m) (n : Fin a) (u : Fin 1) :
    shapeCast ⟨3, ![m, a, 1]⟩ x h (ix3 p n u) = x (ix2 p n) :=
  shapeCast_apply x h _ _ (by
    have hu : u.val = 0 := by omega
    rw [Shape.rowMajor_val_three, Shape.rowMajor_val_two]
    show p.val * a + n.val = (p.val * a + n.val) * 1 + u.val
    rw [hu, Nat.mul_one, Nat.add_zero])

/-- A [1, 1, b] row spread to [m, a, b] reads, at (p, n, o), the row at o. -/
theorem spreadRow_apply {m a b : ℕ} (v : (⟨3, ![1, 1, b]⟩ : Shape).Idx → α)
    (h : (⟨3, ![1, 1, b]⟩ : Shape).Broadcasts ⟨3, ![m, a, b]⟩) (p : Fin m) (n : Fin a) (o : Fin b) :
    broadcastTo ⟨3, ![m, a, b]⟩ v h (ix3 p n o) = v (ix3 (0 : Fin 1) (0 : Fin 1) o) := by
  refine broadcastTo_apply v h (ix3 p n o) (ix3 (0 : Fin 1) (0 : Fin 1) o) fun ax => ?_
  match ax with
  | ⟨0, _⟩ => rfl
  | ⟨1, _⟩ => rfl
  | ⟨2, _⟩ =>
    show o.val = if b = 1 then 0 else o.val
    split
    · have := o.isLt; omega
    · rfl

/-- An [m, a, 1] column spread to [m, a, b] reads, at (p, n, o), the column at (p, n). -/
theorem spreadCol_apply {m a b : ℕ} (v : (⟨3, ![m, a, 1]⟩ : Shape).Idx → α)
    (h : (⟨3, ![m, a, 1]⟩ : Shape).Broadcasts ⟨3, ![m, a, b]⟩) (p : Fin m) (n : Fin a) (o : Fin b) :
    broadcastTo ⟨3, ![m, a, b]⟩ v h (ix3 p n o) = v (ix3 p n (0 : Fin 1)) := by
  refine broadcastTo_apply v h (ix3 p n o) (ix3 p n (0 : Fin 1)) fun ax => ?_
  match ax with
  | ⟨0, _⟩ =>
    show p.val = if m = 1 then 0 else p.val
    split
    · have := p.isLt; omega
    · rfl
  | ⟨1, _⟩ =>
    show n.val = if a = 1 then 0 else n.val
    split
    · have := n.isLt; omega
    · rfl
  | ⟨2, _⟩ => rfl

/-- An [m, a, b] tile summed along its last axis: at (p, n), the sum over the b entries of row (p, n). -/
theorem lastSum_apply {m a b : ℕ} (src : FVec Ideal ⟨3, ![m, a, b]⟩ .f32)
    (h : Shape.Reduces ⟨3, ![m, a, b]⟩ [2] ⟨2, ![m, a]⟩) (hφ : FKind.Formats .f32)
    (hacc : (0x00000000#32 : BitVec 32) = 0x00000000#32) (p : Fin m) (n : Fin a) :
    multiReduction (F := Ideal) .add [2] ⟨2, ![m, a]⟩ src 0x00000000#32 h hφ hacc (ix2 p n)
      = ∑ k : Fin b, src (ix3 p n k) := by
  refine (Ideal.multiReduction_add_single src 0x00000000#32 h hφ hacc (ix2 p n)).trans ?_
  exact Finset.sum_congr rfl fun k _ => congrArg src (funext fun ax => Fin.ext (by
    match ax with
    | ⟨0, _⟩ => rfl
    | ⟨1, _⟩ => rfl
    | ⟨2, _⟩ => rfl))

/-- An [m, 1, b] array summed along its first axis: at (u, o), the sum over the m leading coordinates. -/
theorem firstSum_apply {m b : ℕ} (src : FVec Ideal ⟨3, ![m, 1, b]⟩ .f32)
    (h : Shape.Reduces ⟨3, ![m, 1, b]⟩ [0] ⟨2, ![1, b]⟩) (hφ : FKind.Formats .f32)
    (hacc : (0x00000000#32 : BitVec 32) = 0x00000000#32) (u : Fin 1) (o : Fin b) :
    multiReduction (F := Ideal) .add [0] ⟨2, ![1, b]⟩ src 0x00000000#32 h hφ hacc (ix2 u o)
      = ∑ k : Fin m, src (ix3 k (0 : Fin 1) o) := by
  refine (Ideal.multiReduction_add_single src 0x00000000#32 h hφ hacc (ix2 u o)).trans ?_
  exact Finset.sum_congr rfl fun k _ => congrArg src (funext fun ax => Fin.ext (by
    match ax with
    | ⟨0, _⟩ => rfl
    | ⟨1, _⟩ => show u.val = 0; omega
    | ⟨2, _⟩ => rfl))

end Layout

/-! ## The body's arithmetic at an index -/

/-- The per-feature sum over the batch of a [128, 1, 256] array of per-graph statistics, at feature o. -/
theorem statSum_apply (v : Vec Ideal S128x1x256 .f32) (hc : S128x1x256.ShapeCasts S128x1x256)
    (h : S128x1x256.Reduces [0] S1x256) (hφ : FKind.Formats .f32)
    (hacc : (0x00000000#32 : BitVec 32) = 0x00000000#32) (o : Fin 256) :
    multiReduction (F := Ideal) .add [0] S1x256 (shapeCast S128x1x256 v hc) 0x00000000#32 h hφ hacc (ix2 (0 : Fin 1) o)
      = ∑ b : Fin 128, mid v b o :=
  (firstSum_apply _ h hφ hacc 0 o).trans
    (Finset.sum_congr rfl fun k _ => congrFun (shapeCast_self v hc) (ix3 k (0 : Fin 1) o))

/-- The folded batch normalisation of the tile, entry by entry: the tile's entry times the feature's scale
    γ · r plus the feature's shift β − mean · (γ · r), the statistics read off the two [128, 1, 256] arrays. -/
theorem pay2_apply (v0 v5 : Vec Ideal S128x1x256 .f32) (v12 v17 : Vec Ideal S1x256 .f32) (v20 : Vec Ideal S8x256x256 .bf16)
    (p : Fin 8) (n o : Fin 256) :
    k1_pay2 (F := Ideal) v0 v5 v12 v17 v20 (ix3 p n o)
      = v20 (ix3 p n o) * (row v12 o * rstd (mid v0) (mid v5) o)
          + (row v17 o - mean (mid v0) o * (row v12 o * rstd (mid v0) (mid v5) o)) := by
  unfold k1_pay2
  have hS := statSum_apply v0 shapeCasts_S128x1x256_S128x1x256 reduces_S128x1x256_S1x256 (.inl rfl) rfl o
  have hQ := statSum_apply v5 shapeCasts_S128x1x256_S128x1x256 reduces_S128x1x256_S1x256 (.inl rfl) rfl o
  have hM := congrArg (· * invCount) hS
  have hR := congrArg (row v12 o * ·) (congrArg Ideal.rsqrt (congrArg (· + eps)
    (congrArg₂ (· - ·) (congrArg (· * invCount) hQ) (congrArg₂ (· * ·) hM hM))))
  exact congrArg₂ (· + ·)
    (congrArg₂ (· * ·) (congrFun (shapeCast_self v20 shapeCasts_S8x256x256_S8x256x256) (ix3 p n o))
      ((spreadRow_apply _ broadcasts_S1x1x256_S8x256x256 p n o).trans
        ((castRow_apply _ shapeCasts_S1x256_S1x1x256 0 0 o).trans hR)))
    ((spreadRow_apply _ broadcasts_S1x1x256_S8x256x256 p n o).trans
      ((castRow_apply _ shapeCasts_S1x256_S1x1x256 0 0 o).trans
        (congrArg (row v17 o - ·) (congrArg₂ (· * ·) hM hR))))

/-- The row means of the normalised tile, kept as a column: at (p, n, ·), the sum of row (p, n) over 256. -/
theorem pay3_apply (v0 v5 : Vec Ideal S128x1x256 .f32) (v12 v17 : Vec Ideal S1x256 .f32) (v20 : Vec Ideal S8x256x256 .bf16)
    (p : Fin 8) (n : Fin 256) (u : Fin 1) :
    k1_pay3 (F := Ideal) v0 v5 v12 v17 v20 (ix3 p n u)
      = Ideal.div (∑ k : Fin 256, k1_pay2 (F := Ideal) v0 v5 v12 v17 v20 (ix3 p n k)) rowLen := by
  unfold k1_pay3
  exact congrArg (Ideal.div · rowLen)
    ((castCol_apply _ shapeCasts_S8x256_S8x256x1 p n u).trans
      (lastSum_apply _ reduces_S8x256x256_S8x256 (.inl rfl) rfl p n))

/-- The row sums of squared deviations from the row mean, kept as a column. -/
theorem pay4_apply (v0 v5 : Vec Ideal S128x1x256 .f32) (v12 v17 : Vec Ideal S1x256 .f32) (v20 : Vec Ideal S8x256x256 .bf16)
    (p : Fin 8) (n : Fin 256) (u : Fin 1) :
    k1_pay4 (F := Ideal) v0 v5 v12 v17 v20 (ix3 p n u)
      = ∑ k : Fin 256,
          (k1_pay2 (F := Ideal) v0 v5 v12 v17 v20 (ix3 p n k) - k1_pay3 (F := Ideal) v0 v5 v12 v17 v20 (ix3 p n (0 : Fin 1)))
            * (k1_pay2 (F := Ideal) v0 v5 v12 v17 v20 (ix3 p n k) - k1_pay3 (F := Ideal) v0 v5 v12 v17 v20 (ix3 p n (0 : Fin 1))) := by
  unfold k1_pay4
  refine (castCol_apply _ shapeCasts_S8x256_S8x256x1 p n u).trans
    ((lastSum_apply _ reduces_S8x256x256_S8x256 (.inl rfl) rfl p n).trans (Finset.sum_congr rfl fun k _ => ?_))
  have e := congrArg (k1_pay2 (F := Ideal) v0 v5 v12 v17 v20 (ix3 p n k) - ·)
    (spreadCol_apply (k1_pay3 (F := Ideal) v0 v5 v12 v17 v20) broadcasts_S8x256x1_S8x256x256 p n k)
  exact congrArg₂ (· * ·) e e

/-- The layer normalisation's last step, entry by entry, from the tile, its row means and its row sums of squared
    deviations: centre, scale by 1/√(v/256 + ε), then the affine map of the feature. -/
theorem pay1_apply (v28 : FVec Ideal S8x256x256 .f32) (v32 v37 : FVec Ideal S8x256x1 .f32) (v47 v51 : Vec Ideal S1x256 .f32)
    (p : Fin 8) (n o : Fin 256) :
    k1_pay1 (F := Ideal) v28 v32 v37 v47 v51 (ix3 p n o)
      = ((v28 (ix3 p n o) - v32 (ix3 p n (0 : Fin 1)))
            * Ideal.rsqrt (Ideal.div (v37 (ix3 p n (0 : Fin 1))) rowLen + eps)) * row v47 o + row v51 o := by
  unfold k1_pay1
  exact congrArg₂ (· + ·)
    (congrArg₂ (· * ·)
      (congrArg₂ (· * ·)
        (congrArg (v28 (ix3 p n o) - ·) (spreadCol_apply v32 broadcasts_S8x256x1_S8x256x256 p n o))
        (spreadCol_apply _ broadcasts_S8x256x1_S8x256x256 p n o))
      ((spreadRow_apply _ broadcasts_S1x1x256_S8x256x256 p n o).trans (castRow_apply v47 shapeCasts_S1x256_S1x1x256 0 0 o)))
    ((spreadRow_apply _ broadcasts_S1x1x256_S8x256x256 p n o).trans (castRow_apply v51 shapeCasts_S1x256_S1x1x256 0 0 o))

/-- What the body stores for graph p of its tile, when that graph's rows are graph b's of an array P and the six
    small inputs read as S, Q, γ, β, γ', β': the second pass of the specification at graph b. -/
theorem tile_apply (x0 : Vec Ideal S8x256x256 .bf16) (x1 x2 : Vec Ideal S128x1x256 .f32) (x3 x4 x5 x6 : Vec Ideal S1x256 .f32)
    (P : Fin 128 → Fin 256 → Fin 256 → EReal) (S Q : Fin 128 → Fin 256 → EReal) (g bb lg lb : Fin 256 → EReal)
    (p : Fin 8) (b : Fin 128) (hP : ∀ n k : Fin 256, x0 (ix3 p n k) = P b n k)
    (hS : mid x1 = S) (hQ : mid x2 = Q) (hg : row x3 = g) (hbb : row x4 = bb) (hlg : row x5 = lg) (hlb : row x6 = lb)
    (n o : Fin 256) :
    k1_pay1 (F := Ideal) (k1_pay2 x1 x2 x3 x4 x0) (k1_pay3 x1 x2 x3 x4 x0) (k1_pay4 x1 x2 x3 x4 x0) x5 x6 (ix3 p n o)
      = outFolded P S Q g bb lg lb b n o := by
  subst hS hQ hg hbb hlg hlb
  have hY : ∀ k : Fin 256, k1_pay2 (F := Ideal) x1 x2 x3 x4 x0 (ix3 p n k)
      = bnFolded P (mid x1) (mid x2) (row x3) (row x4) b n k := fun k =>
    (pay2_apply x1 x2 x3 x4 x0 p n k).trans
      (congrArg (· * (row x3 k * rstd (mid x1) (mid x2) k)
        + (row x4 k - mean (mid x1) k * (row x3 k * rstd (mid x1) (mid x2) k))) (hP n k))
  have hμ : k1_pay3 (F := Ideal) x1 x2 x3 x4 x0 (ix3 p n (0 : Fin 1))
      = rowMean (bnFolded P (mid x1) (mid x2) (row x3) (row x4)) b n :=
    (pay3_apply x1 x2 x3 x4 x0 p n 0).trans
      (congrArg (Ideal.div · rowLen) (Finset.sum_congr rfl fun k _ => hY k))
  have hv : k1_pay4 (F := Ideal) x1 x2 x3 x4 x0 (ix3 p n (0 : Fin 1))
      = ∑ k : Fin 256,
          (bnFolded P (mid x1) (mid x2) (row x3) (row x4) b n k - rowMean (bnFolded P (mid x1) (mid x2) (row x3) (row x4)) b n)
            * (bnFolded P (mid x1) (mid x2) (row x3) (row x4) b n k - rowMean (bnFolded P (mid x1) (mid x2) (row x3) (row x4)) b n) :=
    (pay4_apply x1 x2 x3 x4 x0 p n 0).trans
      (Finset.sum_congr rfl fun k _ => by rw [hY k, hμ])
  refine (pay1_apply _ _ _ x5 x6 p n o).trans ?_
  rw [hY o, hμ, hv]
  rfl

/-! ## The windows' blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 16 grid points: the tile and the output move with the point along
    the graphs, every other window stays at block 0. -/
theorem idx_tile : ∀ t : Fin cfg1.N,
    win1_0.index t (0 : Fin 3) = t.val ∧ win1_0.index t (1 : Fin 3) = 0 ∧ win1_0.index t (2 : Fin 3) = 0
    ∧ win1_7.index t (0 : Fin 3) = t.val ∧ win1_7.index t (1 : Fin 3) = 0 ∧ win1_7.index t (2 : Fin 3) = 0 :=
  (by decide +kernel : ∀ t : Fin grid1.N, _)

theorem idx_stats : ∀ t : Fin cfg1.N,
    win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0 :=
  (by decide +kernel : ∀ t : Fin grid1.N, _)

theorem idx_rows : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

variable (V : (c : Dev nD) → (b : Ref sig .tc) → Buf (Elt Ideal) ((c : Thread nD τ).loc b))

/-- The tile at point t holds graphs 8t … 8t + 7 of the convolution array. -/
theorem tile_read (c : Dev nD) (t : Fin cfg1.N) (p : Fin 8) (n k : Fin 256) (b : Fin 128) (hb : b.val = 8 * t.val + p.val) :
    (iblk1 V c 0 t : Vec Ideal S8x256x256 .bf16) (ix3 p n k) = at3 (V c main_v3_0 : S128x256x256.Idx → EReal) b n k := by
  obtain ⟨e0, e1, e2, -⟩ := idx_tile t
  unfold iblk1
  rw [View.read_apply]
  show V c main_v3_0 _ = V c main_v3_0 _
  congr 1
  funext a
  apply Fin.ext
  match a with
  | ⟨0, _⟩ => show win1_0.index t (0 : Fin 3) * 8 + 1 * p.val = b.val; rw [e0, hb]; omega
  | ⟨1, _⟩ => show win1_0.index t (1 : Fin 3) * 256 + 1 * n.val = n.val; rw [e1]; omega
  | ⟨2, _⟩ => show win1_0.index t (2 : Fin 3) * 256 + 1 * k.val = k.val; rw [e2]; omega

/-- The two statistics windows hold their whole [128, 1, 256] arrays at every point. -/
theorem sums_read (c : Dev nD) (t : Fin cfg1.N) :
    (iblk1 V c 1 t : Vec Ideal S128x1x256 .f32) = (V c main_v3_1 : S128x1x256.Idx → EReal) := by
  obtain ⟨e0, e1, e2, -⟩ := idx_stats t
  funext y
  obtain ⟨i, u, k, rfl⟩ : ∃ (i : Fin 128) (u : Fin 1) (k : Fin 256), y = ix3 i u k := ⟨y 0, y 1, y 2, eq_ix3 y⟩
  unfold iblk1
  rw [View.read_apply]
  show V c main_v3_1 _ = V c main_v3_1 _
  congr 1
  funext a
  apply Fin.ext
  match a with
  | ⟨0, _⟩ => show win1_1.index t (0 : Fin 3) * 128 + 1 * i.val = i.val; rw [e0]; omega
  | ⟨1, _⟩ => show win1_1.index t (1 : Fin 3) * 1 + 1 * u.val = u.val; rw [e1]; omega
  | ⟨2, _⟩ => show win1_1.index t (2 : Fin 3) * 256 + 1 * k.val = k.val; rw [e2]; omega

theorem sumSqs_read (c : Dev nD) (t : Fin cfg1.N) :
    (iblk1 V c 2 t : Vec Ideal S128x1x256 .f32) = (V c main_v3_2 : S128x1x256.Idx → EReal) := by
  obtain ⟨-, -, -, e0, e1, e2⟩ := idx_stats t
  funext y
  obtain ⟨i, u, k, rfl⟩ : ∃ (i : Fin 128) (u : Fin 1) (k : Fin 256), y = ix3 i u k := ⟨y 0, y 1, y 2, eq_ix3 y⟩
  unfold iblk1
  rw [View.read_apply]
  show V c main_v3_2 _ = V c main_v3_2 _
  congr 1
  funext a
  apply Fin.ext
  match a with
  | ⟨0, _⟩ => show win1_2.index t (0 : Fin 3) * 128 + 1 * i.val = i.val; rw [e0]; omega
  | ⟨1, _⟩ => show win1_2.index t (1 : Fin 3) * 1 + 1 * u.val = u.val; rw [e1]; omega
  | ⟨2, _⟩ => show win1_2.index t (2 : Fin 3) * 256 + 1 * k.val = k.val; rw [e2]; omega

/-- The four parameter windows hold their whole [1, 256] rows at every point. -/
theorem gamma_read (c : Dev nD) (t : Fin cfg1.N) :
    (iblk1 V c 3 t : Vec Ideal S1x256 .f32) = (V c main_arg3 : S1x256.Idx → EReal) := by
  obtain ⟨e0, e1, -⟩ := idx_rows t
  funext y
  obtain ⟨u, k, rfl⟩ : ∃ (u : Fin 1) (k : Fin 256), y = ix2 u k := ⟨y 0, y 1, eq_ix2 y⟩
  unfold iblk1
  rw [View.read_apply]
  show V c main_arg3 _ = V c main_arg3 _
  congr 1
  funext a
  apply Fin.ext
  match a with
  | ⟨0, _⟩ => show win1_3.index t (0 : Fin 2) * 1 + 1 * u.val = u.val; rw [e0]; omega
  | ⟨1, _⟩ => show win1_3.index t (1 : Fin 2) * 256 + 1 * k.val = k.val; rw [e1]; omega

theorem beta_read (c : Dev nD) (t : Fin cfg1.N) :
    (iblk1 V c 4 t : Vec Ideal S1x256 .f32) = (V c main_arg4 : S1x256.Idx → EReal) := by
  obtain ⟨-, -, e0, e1, -⟩ := idx_rows t
  funext y
  obtain ⟨u, k, rfl⟩ : ∃ (u : Fin 1) (k : Fin 256), y = ix2 u k := ⟨y 0, y 1, eq_ix2 y⟩
  unfold iblk1
  rw [View.read_apply]
  show V c main_arg4 _ = V c main_arg4 _
  congr 1
  funext a
  apply Fin.ext
  match a with
  | ⟨0, _⟩ => show win1_4.index t (0 : Fin 2) * 1 + 1 * u.val = u.val; rw [e0]; omega
  | ⟨1, _⟩ => show win1_4.index t (1 : Fin 2) * 256 + 1 * k.val = k.val; rw [e1]; omega

theorem lnGamma_read (c : Dev nD) (t : Fin cfg1.N) :
    (iblk1 V c 5 t : Vec Ideal S1x256 .f32) = (V c main_arg5 : S1x256.Idx → EReal) := by
  obtain ⟨-, -, -, -, e0, e1, -⟩ := idx_rows t
  funext y
  obtain ⟨u, k, rfl⟩ : ∃ (u : Fin 1) (k : Fin 256), y = ix2 u k := ⟨y 0, y 1, eq_ix2 y⟩
  unfold iblk1
  rw [View.read_apply]
  show V c main_arg5 _ = V c main_arg5 _
  congr 1
  funext a
  apply Fin.ext
  match a with
  | ⟨0, _⟩ => show win1_5.index t (0 : Fin 2) * 1 + 1 * u.val = u.val; rw [e0]; omega
  | ⟨1, _⟩ => show win1_5.index t (1 : Fin 2) * 256 + 1 * k.val = k.val; rw [e1]; omega

theorem lnBeta_read (c : Dev nD) (t : Fin cfg1.N) :
    (iblk1 V c 6 t : Vec Ideal S1x256 .f32) = (V c main_arg6 : S1x256.Idx → EReal) := by
  obtain ⟨-, -, -, -, -, -, e0, e1⟩ := idx_rows t
  funext y
  obtain ⟨u, k, rfl⟩ : ∃ (u : Fin 1) (k : Fin 256), y = ix2 u k := ⟨y 0, y 1, eq_ix2 y⟩
  unfold iblk1
  rw [View.read_apply]
  show V c main_arg6 _ = V c main_arg6 _
  congr 1
  funext a
  apply Fin.ext
  match a with
  | ⟨0, _⟩ => show win1_6.index t (0 : Fin 2) * 1 + 1 * u.val = u.val; rw [e0]; omega
  | ⟨1, _⟩ => show win1_6.index t (1 : Fin 2) * 256 + 1 * k.val = k.val; rw [e1]; omega

/-! ## From the blocks to the array -/

/-- The output array as the specification gives it, from the seven arrays the region reads. -/
abbrev normed (c : Dev nD) : S128x256x256.Idx → EReal :=
  arr3 (outFolded (at3 (V c main_v3_0 : S128x256x256.Idx → EReal))
    (mid (V c main_v3_1 : S128x1x256.Idx → EReal)) (mid (V c main_v3_2 : S128x1x256.Idx → EReal))
    (row (V c main_arg3 : S1x256.Idx → EReal)) (row (V c main_arg4 : S1x256.Idx → EReal))
    (row (V c main_arg5 : S1x256.Idx → EReal)) (row (V c main_arg6 : S1x256.Idx → EReal)))

/-- What point t writes back is block t of the specification's array: graphs 8t … 8t + 7. -/
theorem flushed_eq (c : Dev nD) (t : Fin cfg1.N) :
    (dat1 V c).flushed 7 t = ((cfg1.win 7).blk t).view.read (Elt Ideal) (normed V c) := by
  show (cfg1.win 7).cut (grid1.coords t) ((dat1 V c).after 7 t) = _
  rw [after1_7]
  unfold out1_7
  rw [View.canon_unit_zero hz3]
  simp only [View.ld_unit_zero (S := S8x256x256) hz3, View.ld_unit_zero (S := S128x1x256) hz3,
    View.ld_unit_zero (S := S1x256) hz2]
  funext j
  obtain ⟨p, n, o, rfl⟩ : ∃ (p : Fin 8) (n o : Fin 256), j = ix3 p n o := ⟨j 0, j 1, j 2, eq_ix3 j⟩
  obtain ⟨-, -, -, e0, e1, e2⟩ := idx_tile t
  have hN : cfg1.N = 16 := N_1
  have ht : t.val < cfg1.N := t.isLt
  have hb : 8 * t.val + p.val < 128 := by omega
  have hemb : ((cfg1.win 7).blk t).view.emb (ix3 p n o)
      = (ix3 (⟨8 * t.val + p.val, hb⟩ : Fin 128) n o : S128x256x256.Idx) := by
    funext a
    apply Fin.ext
    match a with
    | ⟨0, _⟩ => show win1_7.index t (0 : Fin 3) * 8 + 1 * p.val = 8 * t.val + p.val; rw [e0]; omega
    | ⟨1, _⟩ => show win1_7.index t (1 : Fin 3) * 256 + 1 * n.val = n.val; rw [e1]; omega
    | ⟨2, _⟩ => show win1_7.index t (2 : Fin 3) * 256 + 1 * o.val = o.val; rw [e2]; omega
  refine Eq.trans ?_ (congrArg (normed V c) hemb.symm)
  exact tile_apply (iblk1 V c 0 t) (iblk1 V c 1 t) (iblk1 V c 2 t) (iblk1 V c 3 t) (iblk1 V c 4 t) (iblk1 V c 5 t)
    (iblk1 V c 6 t) (at3 (V c main_v3_0 : S128x256x256.Idx → EReal))
    (mid (V c main_v3_1 : S128x1x256.Idx → EReal)) (mid (V c main_v3_2 : S128x1x256.Idx → EReal))
    (row (V c main_arg3 : S1x256.Idx → EReal)) (row (V c main_arg4 : S1x256.Idx → EReal))
    (row (V c main_arg5 : S1x256.Idx → EReal)) (row (V c main_arg6 : S1x256.Idx → EReal))
    p ⟨8 * t.val + p.val, hb⟩ (fun n k => tile_read V c t p n k ⟨8 * t.val + p.val, hb⟩ rfl)
    (congrArg mid (sums_read V c t)) (congrArg mid (sumSqs_read V c t))
    (congrArg row (gamma_read V c t)) (congrArg row (beta_read V c t))
    (congrArg row (lnGamma_read V c t)) (congrArg row (lnBeta_read V c t)) n o

/-- An index of the array is in point t's block iff each coordinate is in the block's range on its axis. -/
theorem mem_blk (t : Fin cfg1.N) (i : S128x256x256.Idx) :
    i ∈ ((cfg1.win 7).blk t).view.set ↔ ∀ a : Fin 3, win1_7.index t a * S8x256x256.size a ≤ (i a).val
      ∧ (i a).val < win1_7.index t a * S8x256x256.size a + S8x256x256.size a := by
  show i ∈ ((View.whole main_v4).slice (win1_7.rect t)).set ↔ _
  rw [View.set_slice_whole, Rect.mem_set_unit]
  exact Iff.rfl

/-- Every graph b lies in the block of point b / 8: the sixteen blocks cover the array. -/
theorem covered (i : S128x256x256.Idx) :
    ∃ t : Fin cfg1.N, (cfg1.win 7).flush t = true ∧ i ∈ ((cfg1.win 7).blk t).view.set := by
  have h0 : (i 0).val < 128 := (i 0).isLt
  have h1 : (i 1).val < 256 := (i 1).isLt
  have h2 : (i 2).val < 256 := (i 2).isLt
  have hN : cfg1.N = 16 := N_1
  obtain ⟨t, ht⟩ : ∃ t : Fin cfg1.N, t.val = (i 0).val / 8 := ⟨⟨(i 0).val / 8, by omega⟩, rfl⟩
  obtain ⟨-, -, -, e0, e1, e2⟩ := idx_tile t
  refine ⟨t, flush1_7 t, ?_⟩
  rw [mem_blk]
  intro a
  match a with
  | ⟨0, _⟩ =>
    show win1_7.index t (0 : Fin 3) * 8 ≤ (i 0).val ∧ (i 0).val < win1_7.index t (0 : Fin 3) * 8 + 8
    rw [e0, ht]; omega
  | ⟨1, _⟩ =>
    show win1_7.index t (1 : Fin 3) * 256 ≤ (i 1).val ∧ (i 1).val < win1_7.index t (1 : Fin 3) * 256 + 256
    rw [e1]; omega
  | ⟨2, _⟩ =>
    show win1_7.index t (2 : Fin 3) * 256 ≤ (i 2).val ∧ (i 2).val < win1_7.index t (2 : Fin 3) * 256 + 256
    rw [e2]; omega

/-- The output array ends holding the folded batch normalisation followed by the layer normalisation. -/
theorem out_arr (c : Dev nD) :
    ((dat1 V c).arrAt 7 cfg1.N : S128x256x256.Idx → EReal)
      = arr3 (outFolded (at3 (V c main_v3_0 : S128x256x256.Idx → EReal))
          (mid (V c main_v3_1 : S128x1x256.Idx → EReal)) (mid (V c main_v3_2 : S128x1x256.Idx → EReal))
          (row (V c main_arg3 : S1x256.Idx → EReal)) (row (V c main_arg4 : S1x256.Idx → EReal))
          (row (V c main_arg5 : S1x256.Idx → EReal)) (row (V c main_arg6 : S1x256.Idx → EReal))) :=
  (dat1 V c).arrAt_eq_of_cover 7 (normed V c) (fun t _ => flushed_eq V c t) covered

end Cert.KernelIdeal.NormValue

end
-- ==== Proof.KValue.lean ====
/-
  The kernel's program as one function of its arguments: the result array after both regions is the layer
  normalisation of the folded batch normalisation of the convolution, the statistics being the convolution's own
  column sums. The first region reads the arguments through a change of float format, which at the exact instance
  is the identity; the second reads what the first left and four arguments untouched since the launch.
-/
import proofs.«119475_g2000006224315535_pallasbulk_996_2_alg».proof.Proof.KRun
import proofs.«119475_g2000006224315535_pallasbulk_996_2_alg».proof.Proof.KConv
import proofs.«119475_g2000006224315535_pallasbulk_996_2_alg».proof.Proof.KNorm
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Whole

open Cert.KernelIdeal Cert.KernelIdeal.Gen Cert.Gcn

variable (m : (ℓ : Loc nD τ sig) → Buf (Elt Ideal) ℓ) (ρ : Dev nD → PrngReg)

/-- The argument arrays as functions of coordinates. -/
abbrev xs (c : Dev nD) := at3 (m ((c : Thread nD τ).loc main_arg0) : S128x256x128.Idx → EReal)
abbrev adj (c : Dev nD) := at3 (m ((c : Thread nD τ).loc main_arg1) : S128x256x256.Idx → EReal)
abbrev wt (c : Dev nD) := at2 (m ((c : Thread nD τ).loc main_arg2) : S128x256.Idx → EReal)
abbrev bnG (c : Dev nD) := row (m ((c : Thread nD τ).loc main_arg3) : S1x256.Idx → EReal)
abbrev bnB (c : Dev nD) := row (m ((c : Thread nD τ).loc main_arg4) : S1x256.Idx → EReal)
abbrev lnG (c : Dev nD) := row (m ((c : Thread nD τ).loc main_arg5) : S1x256.Idx → EReal)
abbrev lnB (c : Dev nD) := row (m ((c : Thread nD τ).loc main_arg6) : S1x256.Idx → EReal)

/-- The first region's three inputs are the first three arguments: the format change is the identity. -/
theorem in_x (c : Dev nD) : (V1 m ρ c main_v0 : S128x256x128.Idx → EReal) = m ((c : Thread nD τ).loc main_arg0) := by
  show StableHlo.after hostOps0 (W0 m ρ c) (Proc.devRef .tc main_v0) = _
  after_results
  rfl
theorem in_adj (c : Dev nD) : (V1 m ρ c main_v1 : S128x256x256.Idx → EReal) = m ((c : Thread nD τ).loc main_arg1) := by
  show StableHlo.after hostOps0 (W0 m ρ c) (Proc.devRef .tc main_v1) = _
  after_results
  rfl
theorem in_w (c : Dev nD) : (V1 m ρ c main_v2 : S128x256.Idx → EReal) = m ((c : Thread nD τ).loc main_arg2) := by
  show StableHlo.after hostOps0 (W0 m ρ c) (Proc.devRef .tc main_v2) = _
  after_results
  rfl

/-- The four arguments the second region reads are as launched when it is entered. -/
theorem in_bnG (c : Dev nD) : (V2 m ρ c main_arg3 : S1x256.Idx → EReal) = m ((c : Thread nD τ).loc main_arg3) :=
  ((W3_arr m ρ c 3).trans (((dat1 (V2 m ρ) c).arrAt_in 3 rfl _).trans (A_eq1 (V2 m ρ) c 3))).symm.trans (W3_main_arg3 m ρ c)
theorem in_bnB (c : Dev nD) : (V2 m ρ c main_arg4 : S1x256.Idx → EReal) = m ((c : Thread nD τ).loc main_arg4) :=
  ((W3_arr m ρ c 4).trans (((dat1 (V2 m ρ) c).arrAt_in 4 rfl _).trans (A_eq1 (V2 m ρ) c 4))).symm.trans (W3_main_arg4 m ρ c)
theorem in_lnG (c : Dev nD) : (V2 m ρ c main_arg5 : S1x256.Idx → EReal) = m ((c : Thread nD τ).loc main_arg5) :=
  ((W3_arr m ρ c 5).trans (((dat1 (V2 m ρ) c).arrAt_in 5 rfl _).trans (A_eq1 (V2 m ρ) c 5))).symm.trans (W3_main_arg5 m ρ c)
theorem in_lnB (c : Dev nD) : (V2 m ρ c main_arg6 : S1x256.Idx → EReal) = m ((c : Thread nD τ).loc main_arg6) :=
  ((W3_arr m ρ c 6).trans (((dat1 (V2 m ρ) c).arrAt_in 6 rfl _).trans (A_eq1 (V2 m ρ) c 6))).symm.trans (W3_main_arg6 m ρ c)

/-- The convolution of the batch, from the arguments. -/
abbrev conv3 (c : Dev nD) : Fin 128 → Fin 256 → Fin 256 → EReal := pre (xs m c) (adj m c) (wt m c)

/-- What the first region leaves: the convolution, its column sums, its column sums of squares. -/
theorem mid_pre (c : Dev nD) : (V2 m ρ c main_v3_0 : S128x256x256.Idx → EReal) = arr3 (conv3 m c) := by
  refine ((W2_arr m ρ c 3).trans (ConvValue.pre_arr (V1 m ρ) c)).trans ?_
  unfold ConvValue.P conv3 xs adj wt
  rw [in_x, in_adj, in_w]
theorem mid_psum (c : Dev nD) :
    (V2 m ρ c main_v3_1 : S128x1x256.Idx → EReal) = arr3 (fun b (_ : Fin 1) o => colSum (conv3 m c) b o) := by
  refine ((W2_arr m ρ c 4).trans (ConvValue.psum_arr (V1 m ρ) c)).trans ?_
  unfold ConvValue.P conv3 xs adj wt
  rw [in_x, in_adj, in_w]
theorem mid_psumsq (c : Dev nD) :
    (V2 m ρ c main_v3_2 : S128x1x256.Idx → EReal) = arr3 (fun b (_ : Fin 1) o => colSumSq (conv3 m c) b o) := by
  refine ((W2_arr m ρ c 5).trans (ConvValue.psumsq_arr (V1 m ρ) c)).trans ?_
  unfold ConvValue.P conv3 xs adj wt
  rw [in_x, in_adj, in_w]

/-- The result array at the last boundary: the second pass with the folded batch normalisation, over the
    convolution and its own statistics. -/
theorem result (c : Dev nD) :
    (W3 m ρ c (Proc.devRef .tc main_v4) : S128x256x256.Idx → EReal)
      = arr3 (outFolded (conv3 m c) (colSum (conv3 m c)) (colSumSq (conv3 m c)) (bnG m c) (bnB m c) (lnG m c) (lnB m c)) := by
  refine ((W3_arr m ρ c 7).trans (NormValue.out_arr (V2 m ρ) c)).trans ?_
  rw [mid_pre, mid_psum, mid_psumsq, in_bnG, in_bnB, in_lnG, in_lnB]
  rfl

end Cert.KernelIdeal.Whole

end
-- ==== Proof.RConv.lean ====
/-
  First pass of the reference program: what the three output arrays of the convolution region hold after the region
  has run over its 128 grid points, as functions of the three arrays the region reads (features, adjacency,
  weights) as it finds them.

  In order: the body's arithmetic read at an index (the column of inverse square roots of the degrees, the
  convolution of the loaded graph, its cast to a block, its sums and sums of squares over the nodes); each input
  window's block at grid point t as graph t of its array (the weights' as the whole array); what point t writes
  back to each output as block t of one function of the arrays; the blocks of the 128 points cover each output, so
  each output array ends holding that function.
-/
import proofs.«119475_g2000006224315535_pallasbulk_996_2_alg».proof.Proof.Gen.ReferenceIdeal.Frame
import proofs.«119475_g2000006224315535_pallasbulk_996_2_alg».proof.Proof.Spec
import proofs.«119475_g2000006224315535_pallasbulk_996_2_alg».proof.Proof.LibTile
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.ConvValue

open Cert.ReferenceIdeal Cert.ReferenceIdeal.Gen Cert.Gcn Cert.Tile

/-! ## The body's arithmetic at an index -/

/-- The two generated contraction records are the plain ones: [256,256]·[256,128] and [256,128]·[128,256]. -/
theorem dotA_eq : dot_S256x256_S256x128_S256x128_1_0_0_1_n_n = DotDims.plain 256 256 128 := rfl
theorem dotB_eq : dot_S256x128_S128x256_S256x256_1_0_0_1_n_n = DotDims.plain 256 128 256 := rfl

/-- The column of inverse square roots of the degrees, as the body computes it from the adjacency block:
    at (k, 0), 1/√(deg k) where the degree is positive and 0 elsewhere. -/
theorem dinvCol_apply (x1 : FVec Ideal S1x256x256 .f32) (k : Fin 256) :
    select
        (cmpf .ogt
          (shapeCast S256x1 (multiReduction (F := Ideal) .add [1] S256 (shapeCast S256x256 x1 shapeCasts_S1x256x256_S256x256) 0x00000000#32 reduces_S256x256_S256 (.inl rfl) rfl) shapeCasts_S256_S256x1)
          (broadcast S256x1 (Scalar.ofBits (F := Ideal) .f32 0x00000000#32)))
        (rsqrt (shapeCast S256x1 (multiReduction (F := Ideal) .add [1] S256 (shapeCast S256x256 x1 shapeCasts_S1x256x256_S256x256) 0x00000000#32 reduces_S256x256_S256 (.inl rfl) rfl) shapeCasts_S256_S256x1))
        (broadcast S256x1 (Scalar.ofBits (F := Ideal) .f32 0x00000000#32)) (ix2 k (0 : Fin 1))
      = dinv (at3 x1 (0 : Fin 1)) k := by
  have hdeg : shapeCast S256x1 (multiReduction (F := Ideal) .add [1] S256 (shapeCast S256x256 x1 shapeCasts_S1x256x256_S256x256) 0x00000000#32 reduces_S256x256_S256 (.inl rfl) rfl) shapeCasts_S256_S256x1 (ix2 k (0 : Fin 1))
      = deg (at3 x1 (0 : Fin 1)) k :=
    (rowSumCol_apply _ reduces_S256x256_S256 (.inl rfl) rfl shapeCasts_S256_S256x1 k 0).trans
      (Finset.sum_congr rfl fun j _ => shapeCast_1ab_ab_apply x1 shapeCasts_S1x256x256_S256x256 k j)
  show Scalar.select (Ideal.cmp .ogt _ (Ideal.ofBits .f32 0x00000000#32)) (Ideal.rsqrt _) (Ideal.ofBits .f32 0x00000000#32) = _
  rw [hdeg]
  rfl

/-- The convolution the body computes from its three loaded blocks, at (n, o): the convolution of the loaded
    graph, Σ_f ((Σₖ A n k · (X k f · d k)) · d n) · W f o. -/
theorem convTile_apply (x0 : Vec Ideal S1x256x128 .f32) (x1 : Vec Ideal S1x256x256 .f32) (x2 : Vec Ideal S128x256 .f32)
    (n o : Fin 256) :
    k0_pay1 x0 x1 x2 (ix2 n o) = conv (at3 x0 (0 : Fin 1)) (at3 x1 (0 : Fin 1)) (at2 x2) n o := by
  unfold k0_pay1
  refine (matmul_plain_apply none _ _ n o).trans ?_
  refine Finset.sum_congr rfl fun f _ => ?_
  refine congrArg (· * x2 (ix2 f o)) ?_
  refine congrArg₂ (· * ·) ?_ ?_
  · refine (matmul_plain_apply none _ _ n f).trans ?_
    refine Finset.sum_congr rfl fun k _ => ?_
    refine congrArg₂ (· * ·) (shapeCast_1ab_ab_apply x1 shapeCasts_S1x256x256_S256x256 n k) ?_
    refine congrArg₂ (· * ·) (shapeCast_1ab_ab_apply x0 shapeCasts_S1x256x128_S256x128 k f) ?_
    exact (broadcastTo_a1_ab_apply _ broadcasts_S256x1_S256x128 k f).trans (dinvCol_apply x1 k)
  · exact (broadcastTo_a1_ab_apply _ broadcasts_S256x1_S256x128 n f).trans (dinvCol_apply x1 n)

/-- The convolution stored as a [1,256,256] block: at (u, n, o), the convolution at (n, o). -/
theorem convBlock_apply (x0 : Vec Ideal S1x256x128 .f32) (x1 : Vec Ideal S1x256x256 .f32) (x2 : Vec Ideal S128x256 .f32)
    (u : Fin 1) (n o : Fin 256) :
    k0_pay2 x0 x1 x2 (ix3 u n o) = conv (at3 x0 (0 : Fin 1)) (at3 x1 (0 : Fin 1)) (at2 x2) n o := by
  unfold k0_pay2
  exact (shapeCast_ab_1ab_apply _ shapeCasts_S256x256_S1x256x256 u n o).trans (convTile_apply x0 x1 x2 n o)

/-- The column sums stored as a [1,1,256] block: at (u, v, o), the sum over the nodes n of the convolution at (n, o). -/
theorem sumBlock_apply (x0 : Vec Ideal S1x256x128 .f32) (x1 : Vec Ideal S1x256x256 .f32) (x2 : Vec Ideal S128x256 .f32)
    (u v : Fin 1) (o : Fin 256) :
    k0_pay3 x0 x1 x2 (ix3 u v o) = ∑ n : Fin 256, conv (at3 x0 (0 : Fin 1)) (at3 x1 (0 : Fin 1)) (at2 x2) n o := by
  unfold k0_pay3
  refine (shapeCast_ab_1ab_apply _ shapeCasts_S1x256_S1x1x256 u v o).trans ?_
  refine (shapeCast_a_1a_apply _ shapeCasts_S256_S1x256 v o).trans ?_
  refine (colSum_apply _ reduces_S256x256_S256_2 (.inl rfl) rfl o).trans ?_
  exact Finset.sum_congr rfl fun n _ => convTile_apply x0 x1 x2 n o

/-- The column sums of squares stored as a [1,1,256] block: at (u, v, o), the sum over the nodes n of the square of
    the convolution at (n, o). -/
theorem sumSqBlock_apply (x0 : Vec Ideal S1x256x128 .f32) (x1 : Vec Ideal S1x256x256 .f32) (x2 : Vec Ideal S128x256 .f32)
    (u v : Fin 1) (o : Fin 256) :
    k0_pay4 x0 x1 x2 (ix3 u v o)
      = ∑ n : Fin 256, conv (at3 x0 (0 : Fin 1)) (at3 x1 (0 : Fin 1)) (at2 x2) n o
          * conv (at3 x0 (0 : Fin 1)) (at3 x1 (0 : Fin 1)) (at2 x2) n o := by
  unfold k0_pay4
  refine (shapeCast_ab_1ab_apply _ shapeCasts_S1x256_S1x1x256 u v o).trans ?_
  refine (shapeCast_a_1a_apply _ shapeCasts_S256_S1x256 v o).trans ?_
  refine (colSum_apply _ reduces_S256x256_S256_2 (.inl rfl) rfl o).trans ?_
  exact Finset.sum_congr rfl fun n _ =>
    congrArg₂ (· * ·) (convTile_apply x0 x1 x2 n o) (convTile_apply x0 x1 x2 n o)

/-! ## The windows' blocks as parts of the arrays -/

variable (V : (c : Dev nD) → (b : Ref sig .tc) → Buf (Elt Ideal) ((c : Thread nD τ).loc b))

/-- Grid point t is graph t: the point as a graph number. -/
abbrev graphOf (t : Fin cfg0.N) : Fin 128 := t.cast N_0

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: the features', adjacency's and the three outputs' blocks at point t are
    block t along the graph axis and block 0 on the others; the weights' block is the whole array. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The features' block at point t is graph t of the features. -/
theorem featBlock (c : Dev nD) (t : Fin cfg0.N) :
    at3 (iblk0 V c 0 t : Vec Ideal S1x256x128 .f32) (0 : Fin 1)
      = at3 (V c main_arg0 : S128x256x128.Idx → EReal) (graphOf t) := by
  obtain ⟨⟨e0, e1, e2⟩, -⟩ := index_facts t
  funext k f
  unfold iblk0
  show V c main_arg0 (((cfg0.win 0).blk t).view.emb (ix3 (0 : Fin 1) k f)) = V c main_arg0 (ix3 (graphOf t) k f)
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 256 + 1 * k.val = k.val; omega
  | ⟨2, _⟩ => show win0_0.index t (2 : Fin 3) * 128 + 1 * f.val = f.val; omega

/-- The adjacency's block at point t is graph t of the adjacency. -/
theorem adjBlock (c : Dev nD) (t : Fin cfg0.N) :
    at3 (iblk0 V c 1 t : Vec Ideal S1x256x256 .f32) (0 : Fin 1)
      = at3 (V c main_arg1 : S128x256x256.Idx → EReal) (graphOf t) := by
  obtain ⟨-, ⟨e0, e1, e2⟩, -⟩ := index_facts t
  funext n k
  unfold iblk0
  show V c main_arg1 (((cfg0.win 1).blk t).view.emb (ix3 (0 : Fin 1) n k)) = V c main_arg1 (ix3 (graphOf t) n k)
  refine congrArg (V c main_arg1) (funext fun a => Fin.ext ?_)
  match a with
  | ⟨0, _⟩ => show win0_1.index t (0 : Fin 3) * 1 + 1 * 0 = t.val; omega
  | ⟨1, _⟩ => show win0_1.index t (1 : Fin 3) * 256 + 1 * n.val = n.val; omega
  | ⟨2, _⟩ => show win0_1.index t (2 : Fin 3) * 256 + 1 * k.val = k.val; omega

/-- The weights' block at every point is the whole weights array. -/
theorem wgtBlock (c : Dev nD) (t : Fin cfg0.N) :
    at2 (iblk0 V c 2 t : Vec Ideal S128x256 .f32) = at2 (V c main_arg2 : S128x256.Idx → EReal) := by
  obtain ⟨-, -, ⟨e0, e1⟩, -⟩ := index_facts t
  funext f o
  unfold iblk0
  show V c main_arg2 (((cfg0.win 2).blk t).view.emb (ix2 f o)) = V c main_arg2 (ix2 f o)
  refine congrArg (V c main_arg2) (funext fun a => Fin.ext ?_)
  match a with
  | ⟨0, _⟩ => show win0_2.index t (0 : Fin 2) * 128 + 1 * f.val = f.val; omega
  | ⟨1, _⟩ => show win0_2.index t (1 : Fin 2) * 256 + 1 * o.val = o.val; omega

/-- The convolution of every graph, from the region's three input arrays as it finds them. -/
abbrev P (c : Dev nD) : Fin 128 → Fin 256 → Fin 256 → EReal :=
  pre (at3 (V c main_arg0 : S128x256x128.Idx → EReal)) (at3 (V c main_arg1 : S128x256x256.Idx → EReal)) (at2 (V c main_arg2 : S128x256.Idx → EReal))

/-- The convolution of the blocks loaded at point t is the convolution of graph t. -/
theorem conv_blocks (c : Dev nD) (t : Fin cfg0.N) :
    conv (at3 (iblk0 V c 0 t : Vec Ideal S1x256x128 .f32) (0 : Fin 1)) (at3 (iblk0 V c 1 t : Vec Ideal S1x256x256 .f32) (0 : Fin 1))
        (at2 (iblk0 V c 2 t : Vec Ideal S128x256 .f32))
      = P V c (graphOf t) := by
  rw [featBlock V c t, adjBlock V c t, wgtBlock V c t]
  rfl

/-! ## What each point writes back -/

/-- Point t writes back, to the first output, block t of the convolution. -/
theorem pre_flushed (c : Dev nD) (t : Fin cfg0.N) :
    (dat0 V c).flushed 3 t = ((cfg0.win 3).blk t).view.read (Elt Ideal) (arr3 (P V c)) := by
  show (cfg0.win 3).cut (grid0.coords t) ((dat0 V c).after 3 t) = _
  rw [after0_3]
  unfold out0_3
  rw [View.canon_unit_zero zeros3]
  simp only [View.ld_unit_zero (S := S1x256x128) zeros3, View.ld_unit_zero (S := S1x256x256) zeros3,
    View.ld_unit_zero (S := S128x256) zeros2]
  obtain ⟨-, -, -, ⟨e0, e1, e2⟩, -⟩ := index_facts t
  funext j
  obtain ⟨p, q, r, rfl⟩ : ∃ (p : Fin 1) (q r : Fin 256), j = ix3 p q r := ⟨j 0, j 1, j 2, eq_ix3 j⟩
  have hemb : ((cfg0.win 3).blk t).view.emb (ix3 p q r) = (ix3 (graphOf t) q r : S128x256x256.Idx) :=
    funext fun a => Fin.ext (by
      match a with
      | ⟨0, _⟩ => show win0_3.index t (0 : Fin 3) * 1 + 1 * p.val = t.val; omega
      | ⟨1, _⟩ => show win0_3.index t (1 : Fin 3) * 256 + 1 * q.val = q.val; omega
      | ⟨2, _⟩ => show win0_3.index t (2 : Fin 3) * 256 + 1 * r.val = r.val; omega)
  show k0_pay2 (iblk0 V c 0 t) (iblk0 V c 1 t) (iblk0 V c 2 t) (ix3 p q r)
    = arr3 (P V c) (((cfg0.win 3).blk t).view.emb (ix3 p q r))
  refine (convBlock_apply (iblk0 V c 0 t) (iblk0 V c 1 t) (iblk0 V c 2 t) p q r).trans ?_
  refine Eq.trans ?_ (congrArg (arr3 (P V c)) hemb.symm)
  exact congrFun (congrFun (conv_blocks V c t) q) r

/-- Point t writes back, to the second output, block t of the sums over the nodes. -/
theorem psum_flushed (c : Dev nD) (t : Fin cfg0.N) :
    (dat0 V c).flushed 4 t
      = ((cfg0.win 4).blk t).view.read (Elt Ideal) (arr3 (fun b (_ : Fin 1) o => colSum (P V c) b o)) := by
  show (cfg0.win 4).cut (grid0.coords t) ((dat0 V c).after 4 t) = _
  rw [after0_4]
  unfold out0_4
  rw [View.canon_unit_zero zeros3]
  simp only [View.ld_unit_zero (S := S1x256x128) zeros3, View.ld_unit_zero (S := S1x256x256) zeros3,
    View.ld_unit_zero (S := S128x256) zeros2]
  obtain ⟨-, -, -, -, ⟨e0, e1, e2⟩, -⟩ := index_facts t
  funext j
  obtain ⟨p, q, r, rfl⟩ : ∃ (p q : Fin 1) (r : Fin 256), j = ix3 p q r := ⟨j 0, j 1, j 2, eq_ix3 j⟩
  have hemb : ((cfg0.win 4).blk t).view.emb (ix3 p q r) = (ix3 (graphOf t) q r : S128x1x256.Idx) :=
    funext fun a => Fin.ext (by
      match a with
      | ⟨0, _⟩ => show win0_4.index t (0 : Fin 3) * 1 + 1 * p.val = t.val; omega
      | ⟨1, _⟩ => show win0_4.index t (1 : Fin 3) * 1 + 1 * q.val = q.val; omega
      | ⟨2, _⟩ => show win0_4.index t (2 : Fin 3) * 256 + 1 * r.val = r.val; omega)
  show k0_pay3 (iblk0 V c 0 t) (iblk0 V c 1 t) (iblk0 V c 2 t) (ix3 p q r)
    = arr3 (fun b (_ : Fin 1) o => colSum (P V c) b o) (((cfg0.win 4).blk t).view.emb (ix3 p q r))
  refine (sumBlock_apply (iblk0 V c 0 t) (iblk0 V c 1 t) (iblk0 V c 2 t) p q r).trans ?_
  refine Eq.trans ?_ (congrArg (arr3 (fun b (_ : Fin 1) o => colSum (P V c) b o)) hemb.symm)
  show _ = ∑ n : Fin 256, P V c (graphOf t) n r
  exact Finset.sum_congr rfl fun n _ => congrFun (congrFun (conv_blocks V c t) n) r

/-- Point t writes back, to the third output, block t of the sums of squares over the nodes. -/
theorem psumsq_flushed (c : Dev nD) (t : Fin cfg0.N) :
    (dat0 V c).flushed 5 t
      = ((cfg0.win 5).blk t).view.read (Elt Ideal) (arr3 (fun b (_ : Fin 1) o => colSumSq (P V c) b o)) := by
  show (cfg0.win 5).cut (grid0.coords t) ((dat0 V c).after 5 t) = _
  rw [after0_5]
  unfold out0_5
  rw [View.canon_unit_zero zeros3]
  simp only [View.ld_unit_zero (S := S1x256x128) zeros3, View.ld_unit_zero (S := S1x256x256) zeros3,
    View.ld_unit_zero (S := S128x256) zeros2]
  obtain ⟨-, -, -, -, -, ⟨e0, e1, e2⟩⟩ := index_facts t
  funext j
  obtain ⟨p, q, r, rfl⟩ : ∃ (p q : Fin 1) (r : Fin 256), j = ix3 p q r := ⟨j 0, j 1, j 2, eq_ix3 j⟩
  have hemb : ((cfg0.win 5).blk t).view.emb (ix3 p q r) = (ix3 (graphOf t) q r : S128x1x256.Idx) :=
    funext fun a => Fin.ext (by
      match a with
      | ⟨0, _⟩ => show win0_5.index t (0 : Fin 3) * 1 + 1 * p.val = t.val; omega
      | ⟨1, _⟩ => show win0_5.index t (1 : Fin 3) * 1 + 1 * q.val = q.val; omega
      | ⟨2, _⟩ => show win0_5.index t (2 : Fin 3) * 256 + 1 * r.val = r.val; omega)
  show k0_pay4 (iblk0 V c 0 t) (iblk0 V c 1 t) (iblk0 V c 2 t) (ix3 p q r)
    = arr3 (fun b (_ : Fin 1) o => colSumSq (P V c) b o) (((cfg0.win 5).blk t).view.emb (ix3 p q r))
  refine (sumSqBlock_apply (iblk0 V c 0 t) (iblk0 V c 1 t) (iblk0 V c 2 t) p q r).trans ?_
  refine Eq.trans ?_ (congrArg (arr3 (fun b (_ : Fin 1) o => colSumSq (P V c) b o)) hemb.symm)
  show _ = ∑ n : Fin 256, P V c (graphOf t) n r * P V c (graphOf t) n r
  exact Finset.sum_congr rfl fun n _ =>
    congrArg₂ (· * ·) (congrFun (congrFun (conv_blocks V c t) n) r) (congrFun (congrFun (conv_blocks V c t) n) r)

/-! ## The blocks cover the arrays -/

/-- The grid point whose blocks hold graph b. -/
abbrev pointOf (b : Fin 128) : Fin cfg0.N := b.cast N_0.symm

/-- Every index of the first output lies in the block of the point of its graph. -/
theorem pre_cover (i : S128x256x256.Idx) :
    ∃ t : Fin cfg0.N, (cfg0.win 3).flush t = true ∧ i ∈ ((cfg0.win 3).blk t).view.set := by
  refine ⟨pointOf (i 0), flush0_3 _, ?_⟩
  obtain ⟨-, -, -, ⟨e0, e1, e2⟩, -⟩ := index_facts (pointOf (i 0))
  have h0 : (pointOf (i 0)).val = (i 0).val := rfl
  have h1 : (i 1).val < 256 := (i 1).isLt
  have h2 : (i 2).val < 256 := (i 2).isLt
  show i ∈ ((View.whole main_v0_0).slice (win0_3.rect (pointOf (i 0)))).set
  rw [View.set_slice_whole, Rect.mem_set_unit]
  intro a
  match a with
  | ⟨0, _⟩ =>
    show win0_3.index (pointOf (i 0)) (0 : Fin 3) * 1 ≤ (i 0).val ∧ (i 0).val < win0_3.index (pointOf (i 0)) (0 : Fin 3) * 1 + 1
    omega
  | ⟨1, _⟩ =>
    show win0_3.index (pointOf (i 0)) (1 : Fin 3) * 256 ≤ (i 1).val ∧ (i 1).val < win0_3.index (pointOf (i 0)) (1 : Fin 3) * 256 + 256
    omega
  | ⟨2, _⟩ =>
    show win0_3.index (pointOf (i 0)) (2 : Fin 3) * 256 ≤ (i 2).val ∧ (i 2).val < win0_3.index (pointOf (i 0)) (2 : Fin 3) * 256 + 256
    omega

/-- Every index of the second output lies in the block of the point of its graph. -/
theorem psum_cover (i : S128x1x256.Idx) :
    ∃ t : Fin cfg0.N, (cfg0.win 4).flush t = true ∧ i ∈ ((cfg0.win 4).blk t).view.set := by
  refine ⟨pointOf (i 0), flush0_4 _, ?_⟩
  obtain ⟨-, -, -, -, ⟨e0, e1, e2⟩, -⟩ := index_facts (pointOf (i 0))
  have h0 : (pointOf (i 0)).val = (i 0).val := rfl
  have h1 : (i 1).val < 1 := (i 1).isLt
  have h2 : (i 2).val < 256 := (i 2).isLt
  show i ∈ ((View.whole main_v0_1).slice (win0_4.rect (pointOf (i 0)))).set
  rw [View.set_slice_whole, Rect.mem_set_unit]
  intro a
  match a with
  | ⟨0, _⟩ =>
    show win0_4.index (pointOf (i 0)) (0 : Fin 3) * 1 ≤ (i 0).val ∧ (i 0).val < win0_4.index (pointOf (i 0)) (0 : Fin 3) * 1 + 1
    omega
  | ⟨1, _⟩ =>
    show win0_4.index (pointOf (i 0)) (1 : Fin 3) * 1 ≤ (i 1).val ∧ (i 1).val < win0_4.index (pointOf (i 0)) (1 : Fin 3) * 1 + 1
    omega
  | ⟨2, _⟩ =>
    show win0_4.index (pointOf (i 0)) (2 : Fin 3) * 256 ≤ (i 2).val ∧ (i 2).val < win0_4.index (pointOf (i 0)) (2 : Fin 3) * 256 + 256
    omega

/-- Every index of the third output lies in the block of the point of its graph. -/
theorem psumsq_cover (i : S128x1x256.Idx) :
    ∃ t : Fin cfg0.N, (cfg0.win 5).flush t = true ∧ i ∈ ((cfg0.win 5).blk t).view.set := by
  refine ⟨pointOf (i 0), flush0_5 _, ?_⟩
  obtain ⟨-, -, -, -, -, ⟨e0, e1, e2⟩⟩ := index_facts (pointOf (i 0))
  have h0 : (pointOf (i 0)).val = (i 0).val := rfl
  have h1 : (i 1).val < 1 := (i 1).isLt
  have h2 : (i 2).val < 256 := (i 2).isLt
  show i ∈ ((View.whole main_v0_2).slice (win0_5.rect (pointOf (i 0)))).set
  rw [View.set_slice_whole, Rect.mem_set_unit]
  intro a
  match a with
  | ⟨0, _⟩ =>
    show win0_5.index (pointOf (i 0)) (0 : Fin 3) * 1 ≤ (i 0).val ∧ (i 0).val < win0_5.index (pointOf (i 0)) (0 : Fin 3) * 1 + 1
    omega
  | ⟨1, _⟩ =>
    show win0_5.index (pointOf (i 0)) (1 : Fin 3) * 1 ≤ (i 1).val ∧ (i 1).val < win0_5.index (pointOf (i 0)) (1 : Fin 3) * 1 + 1
    omega
  | ⟨2, _⟩ =>
    show win0_5.index (pointOf (i 0)) (2 : Fin 3) * 256 ≤ (i 2).val ∧ (i 2).val < win0_5.index (pointOf (i 0)) (2 : Fin 3) * 256 + 256
    omega

/-! ## The three arrays after the region -/

/-- The first output array ends holding the convolution. -/
theorem pre_arr (c : Dev nD) :
    ((dat0 V c).arrAt 3 cfg0.N : S128x256x256.Idx → EReal) = arr3 (P V c) :=
  (dat0 V c).arrAt_eq_of_cover 3 (arr3 (P V c)) (fun t _ => pre_flushed V c t) pre_cover

/-- The second output array ends holding, per graph and feature, the sum over the nodes. -/
theorem psum_arr (c : Dev nD) :
    ((dat0 V c).arrAt 4 cfg0.N : S128x1x256.Idx → EReal) = arr3 (fun b (_ : Fin 1) o => colSum (P V c) b o) :=
  (dat0 V c).arrAt_eq_of_cover 4 (arr3 (fun b (_ : Fin 1) o => colSum (P V c) b o)) (fun t _ => psum_flushed V c t) psum_cover

/-- The third output array ends holding, per graph and feature, the sum of the squares over the nodes. -/
theorem psumsq_arr (c : Dev nD) :
    ((dat0 V c).arrAt 5 cfg0.N : S128x1x256.Idx → EReal) = arr3 (fun b (_ : Fin 1) o => colSumSq (P V c) b o) :=
  (dat0 V c).arrAt_eq_of_cover 5 (arr3 (fun b (_ : Fin 1) o => colSumSq (P V c) b o)) (fun t _ => psumsq_flushed V c t) psumsq_cover

end Cert.ReferenceIdeal.ConvValue

end
-- ==== Proof.RNorm.lean ====
/-
  Second pass of the reference program: what the output array of the normalisation region holds after the region
  has run over its 128 grid points (one graph a point), as a function of the seven arrays the region reads as it
  finds them.

  At point t the region reads graph t's [256, 256] tile P of the first pass, the two [128, 1, 256] arrays of per-graph
  column sums S and sums of squares Q (whole), and four [1, 256] rows γ, β, γ', β'. Per feature o it forms
  mean o = (Σ_b S b o) · 2⁻¹⁵, var o = (Σ_b Q b o) · 2⁻¹⁵ − mean², r o = 1/√(var o + ε); the tile Y n o =
  ((P n o − mean o) · r o) · γ o + β o; per row n, μ n = (Σₖ Y n k)/256 and v n = (Σₖ (Y n k − μ n)²)/256; and it writes
  ((Y n o − μ n) · 1/√(v n + ε)) · γ' o + β' o to block t of the output. The blocks of the 128 points tile the output.
-/
import proofs.«119475_g2000006224315535_pallasbulk_996_2_alg».proof.Proof.Gen.ReferenceIdeal.Frame
import proofs.«119475_g2000006224315535_pallasbulk_996_2_alg».proof.Proof.Spec
import proofs.«119475_g2000006224315535_pallasbulk_996_2_alg».proof.Proof.LibTile
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.NormValue

open Cert.ReferenceIdeal Cert.ReferenceIdeal.Gen Cert.Gcn Cert.Tile

/-! ## The statistics of a feature, from the per-graph sums -/

/-- A [128, 1, 256] array summed over its first axis reads, at (0, o), the sum over the 128 leading coordinates of the
    array at (b, 0, o). -/
theorem sumLead_apply (src : FVec Ideal S128x1x256 .f32)
    (h : Shape.Reduces S128x1x256 [0] S1x256) (hφ : FKind.Formats .f32)
    (hacc : (0x00000000#32 : BitVec 32) = 0x00000000#32) (o : Fin 256) :
    multiReduction (F := Ideal) .add [0] S1x256 src 0x00000000#32 h hφ hacc (ix2 (0 : Fin 1) o)
      = ∑ b : Fin 128, src (ix3 b (0 : Fin 1) o) := by
  refine (Ideal.multiReduction_add_single src 0x00000000#32 h hφ hacc (ix2 (0 : Fin 1) o)).trans ?_
  exact Finset.sum_congr rfl fun k _ => congrArg src (funext fun ax => Fin.ext (by
    match ax with
    | ⟨0, _⟩ => rfl
    | ⟨1, _⟩ => rfl
    | ⟨2, _⟩ => rfl))

/-- The sum over the graphs of a [128, 1, 256] array, times 2⁻¹⁵, at (0, o): the batch mean of feature o when the
    array holds the per-graph sums (and the second moment when it holds the sums of squares). -/
theorem mean_apply (x : FVec Ideal S128x1x256 .f32) (hs : S128x1x256.ShapeCasts S128x1x256)
    (h : Shape.Reduces S128x1x256 [0] S1x256) (hφ : FKind.Formats .f32)
    (hacc : (0x00000000#32 : BitVec 32) = 0x00000000#32) (o : Fin 256) :
    mulf (multiReduction (F := Ideal) .add [0] S1x256 (shapeCast S128x1x256 x hs) 0x00000000#32 h hφ hacc)
        (broadcast S1x256 (Scalar.ofBits (F := Ideal) .f32 0x38000000#32)) (ix2 (0 : Fin 1) o)
      = mean (mid x) o :=
  congrArg₂ (· * ·)
    ((congrArg (fun v => multiReduction (F := Ideal) .add [0] S1x256 v 0x00000000#32 h hφ hacc (ix2 (0 : Fin 1) o))
        (shapeCast_self x hs)).trans (sumLead_apply x h hφ hacc o))
    rfl

/-! ## The batch-normalised tile -/

/-- The tile after the batch normalisation, at (n, o): the graph's entry centred at the batch mean of feature o, scaled by
    1/√(var o + ε), then γ o · … + β o. -/
theorem bnTile_apply (x1 x2 : Vec Ideal S128x1x256 .f32) (x0 : Vec Ideal S1x256x256 .f32) (x3 x4 : Vec Ideal S1x256 .f32)
    (n o : Fin 256) :
    k1_pay2 (F := Ideal) x1 x2 x0 x3 x4 (ix2 n o)
      = ((x0 (ix3 (0 : Fin 1) n o) - mean (mid x1) o) * rstd (mid x1) (mid x2) o) * row x3 o + row x4 o := by
  unfold k1_pay2
  exact congrArg₂ (· + ·)
    (congrArg₂ (· * ·)
      (congrArg₂ (· * ·)
        (congrArg₂ (· - ·)
          (shapeCast_1ab_ab_apply x0 _ n o)
          ((broadcastTo_1b_ab_apply _ _ n o).trans (mean_apply x1 _ _ _ _ o)))
        ((broadcastTo_1b_ab_apply _ _ n o).trans
          (congrArg Ideal.rsqrt
            (congrArg₂ (· + ·)
              (congrArg₂ (· - ·) (mean_apply x2 _ _ _ _ o)
                (congrArg₂ (· * ·) (mean_apply x1 _ _ _ _ o) (mean_apply x1 _ _ _ _ o)))
              rfl))))
      (broadcastTo_1b_ab_apply x3 _ n o))
    (broadcastTo_1b_ab_apply x4 _ n o)

/-! ## The layer normalisation of the tile -/

/-- The column of row means of the batch-normalised tile, at (n, 0): the sum of row n over 256. -/
theorem rowMeanTile_apply (x1 x2 : Vec Ideal S128x1x256 .f32) (x0 : Vec Ideal S1x256x256 .f32) (x3 x4 : Vec Ideal S1x256 .f32)
    (n : Fin 256) :
    k1_pay3 (F := Ideal) x1 x2 x0 x3 x4 (ix2 n (0 : Fin 1))
      = Ideal.div (∑ k : Fin 256, k1_pay2 (F := Ideal) x1 x2 x0 x3 x4 (ix2 n k)) rowLen := by
  unfold k1_pay3
  exact congrArg₂ Ideal.div (rowSumCol_apply (k1_pay2 (F := Ideal) x1 x2 x0 x3 x4) _ _ _ _ n (0 : Fin 1)) rfl

/-- The column of each row's summed squared deviations from its mean, at (n, 0). -/
theorem rowSqDevTile_apply (x1 x2 : Vec Ideal S128x1x256 .f32) (x0 : Vec Ideal S1x256x256 .f32) (x3 x4 : Vec Ideal S1x256 .f32)
    (n : Fin 256) :
    k1_pay4 (F := Ideal) x1 x2 x0 x3 x4 (ix2 n (0 : Fin 1))
      = ∑ k : Fin 256,
          (k1_pay2 (F := Ideal) x1 x2 x0 x3 x4 (ix2 n k) - k1_pay3 (F := Ideal) x1 x2 x0 x3 x4 (ix2 n (0 : Fin 1)))
            * (k1_pay2 (F := Ideal) x1 x2 x0 x3 x4 (ix2 n k) - k1_pay3 (F := Ideal) x1 x2 x0 x3 x4 (ix2 n (0 : Fin 1))) := by
  unfold k1_pay4
  refine (rowSumCol_apply _ _ _ _ _ n (0 : Fin 1)).trans ?_
  exact Finset.sum_congr rfl fun k _ =>
    congrArg₂ (· * ·)
      (congrArg₂ (· - ·) rfl (broadcastTo_a1_ab_apply (k1_pay3 (F := Ideal) x1 x2 x0 x3 x4) _ n k))
      (congrArg₂ (· - ·) rfl (broadcastTo_a1_ab_apply (k1_pay3 (F := Ideal) x1 x2 x0 x3 x4) _ n k))

/-- The stored block at (u, n, o), from a tile Y, its column of row means μ, the column of summed squared
    deviations s, a column of divisors d and the two affine rows:
    ((Y n o − μ n) · 1/√(s n / d n + ε)) · γ' o + β' o. -/
theorem lnTile_apply (v26 : FVec Ideal S256x256 .f32) (v30 v35 v36 : FVec Ideal S256x1 .f32) (v45 v48 : Vec Ideal S1x256 .f32)
    (u : Fin 1) (n o : Fin 256) :
    k1_pay1 (F := Ideal) v26 v30 v35 v36 v45 v48 (ix3 u n o)
      = ((v26 (ix2 n o) - v30 (ix2 n (0 : Fin 1)))
            * Ideal.rsqrt (Ideal.div (v35 (ix2 n (0 : Fin 1))) (v36 (ix2 n (0 : Fin 1))) + eps))
          * row v45 o + row v48 o := by
  unfold k1_pay1
  refine (shapeCast_ab_1ab_apply _ _ u n o).trans ?_
  exact congrArg₂ (· + ·)
    (congrArg₂ (· * ·)
      (congrArg₂ (· * ·)
        (congrArg₂ (· - ·) rfl (broadcastTo_a1_ab_apply v30 _ n o))
        (broadcastTo_a1_ab_apply _ _ n o))
      (broadcastTo_1b_ab_apply v45 _ n o))
    (broadcastTo_1b_ab_apply v48 _ n o)

/-- WHAT ONE POINT STORES, at (u, n, o): when the loaded [1, 256, 256] block is graph b's tile of P, the stored block
    is the second pass (plain batch normalisation, then layer normalisation) of P at (b, n, o), with the statistics
    taken from the two loaded [128, 1, 256] arrays and the affine maps from the four loaded rows. -/
theorem stored_apply (x0 : Vec Ideal S1x256x256 .f32) (x1 x2 : Vec Ideal S128x1x256 .f32) (x3 x4 x5 x6 : Vec Ideal S1x256 .f32)
    (P : Fin 128 → Fin 256 → Fin 256 → EReal) (S Q : Fin 128 → Fin 256 → EReal) (g bb lg lb : Fin 256 → EReal) (b : Fin 128)
    (hP : ∀ n o : Fin 256, x0 (ix3 (0 : Fin 1) n o) = P b n o)
    (h1 : mid x1 = S) (h2 : mid x2 = Q) (h3 : row x3 = g) (h4 : row x4 = bb) (h5 : row x5 = lg) (h6 : row x6 = lb)
    (u : Fin 1) (n o : Fin 256) :
    k1_pay1 (F := Ideal) (k1_pay2 (F := Ideal) x1 x2 x0 x3 x4) (k1_pay3 (F := Ideal) x1 x2 x0 x3 x4)
        (k1_pay4 (F := Ideal) x1 x2 x0 x3 x4) (k1_pay5 (F := Ideal)) x5 x6 (ix3 u n o)
      = outPlain P S Q g bb lg lb b n o := by
  subst h1 h2 h3 h4 h5 h6
  have hY : ∀ n o : Fin 256, k1_pay2 (F := Ideal) x1 x2 x0 x3 x4 (ix2 n o)
      = bnPlain P (mid x1) (mid x2) (row x3) (row x4) b n o := fun n o =>
    (bnTile_apply x1 x2 x0 x3 x4 n o).trans
      (congrArg (fun z => ((z - mean (mid x1) o) * rstd (mid x1) (mid x2) o) * row x3 o + row x4 o) (hP n o))
  have hμ : ∀ n : Fin 256, k1_pay3 (F := Ideal) x1 x2 x0 x3 x4 (ix2 n (0 : Fin 1))
      = rowMean (bnPlain P (mid x1) (mid x2) (row x3) (row x4)) b n := fun n =>
    (rowMeanTile_apply x1 x2 x0 x3 x4 n).trans
      (congrArg (fun z => Ideal.div z rowLen) (Finset.sum_congr rfl fun k _ => hY n k))
  have hv : ∀ n : Fin 256, Ideal.div (k1_pay4 (F := Ideal) x1 x2 x0 x3 x4 (ix2 n (0 : Fin 1)))
        (k1_pay5 (F := Ideal) (ix2 n (0 : Fin 1)))
      = rowVar (bnPlain P (mid x1) (mid x2) (row x3) (row x4)) b n := fun n =>
    congrArg₂ Ideal.div
      ((rowSqDevTile_apply x1 x2 x0 x3 x4 n).trans (Finset.sum_congr rfl fun k _ =>
        congrArg₂ (· * ·) (congrArg₂ (· - ·) (hY n k) (hμ n)) (congrArg₂ (· - ·) (hY n k) (hμ n))))
      rfl
  refine (lnTile_apply _ _ _ _ x5 x6 u n o).trans ?_
  exact congrArg₂ (· + ·)
    (congrArg₂ (· * ·)
      (congrArg₂ (· * ·)
        (congrArg₂ (· - ·) (hY n o) (hμ n))
        (congrArg Ideal.rsqrt (congrArg₂ (· + ·) (hv n) rfl)))
      rfl)
    rfl

/-! ## From the blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided once over the grid: the output's and the tile's block index is (t, 0, 0); every
    other window's block is its whole array. -/
theorem idx_facts : ∀ t : Fin cfg1.N,
    (win1_7.index t (0 : Fin 3) = t.val ∧ win1_7.index t (1 : Fin 3) = 0 ∧ win1_7.index t (2 : Fin 3) = 0)
    ∧ (win1_0.index t (0 : Fin 3) = t.val ∧ win1_0.index t (1 : Fin 3) = 0 ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The graph a grid point works on. -/
def graphOf (t : Fin cfg1.N) : Fin 128 := ⟨t.val, lt_of_lt_of_eq t.isLt N_1⟩

/-- The tile window's block at point t is graph t's [256, 256] tile of the first pass's array. -/
theorem tile_apply (c : Dev nD) (t : Fin cfg1.N) (u : Fin 1) (n o : Fin 256) :
    (iblk1 V c 0 t : Vec Ideal S1x256x256 .f32) (ix3 u n o)
      = (V c main_v0_0 : S128x256x256.Idx → EReal) (ix3 (graphOf t) n o) := by
  obtain ⟨-, ⟨e0, e1, e2⟩, -⟩ := idx_facts t
  have hu : u.val = 0 := by omega
  unfold iblk1
  rw [View.read_apply]
  show V c main_v0_0 _ = V c main_v0_0 _
  congr 1
  funext a
  apply Fin.ext
  match a with
  | ⟨0, _⟩ => show win1_0.index t (0 : Fin 3) * 1 + 1 * u.val = t.val; rw [e0, hu]; omega
  | ⟨1, _⟩ => show win1_0.index t (1 : Fin 3) * 256 + 1 * n.val = n.val; rw [e1]; omega
  | ⟨2, _⟩ => show win1_0.index t (2 : Fin 3) * 256 + 1 * o.val = o.val; rw [e2]; omega

/-- The window of per-graph sums is its whole array at every point. -/
theorem sums_eq (c : Dev nD) (t : Fin cfg1.N) :
    (iblk1 V c 1 t : Vec Ideal S128x1x256 .f32) = (V c main_v0_1 : S128x1x256.Idx → EReal) := by
  obtain ⟨-, -, ⟨e0, e1, e2⟩, -⟩ := idx_facts t
  funext y
  unfold iblk1
  rw [View.read_apply]
  show V c main_v0_1 _ = V c main_v0_1 y
  congr 1
  funext a
  apply Fin.ext
  match a with
  | ⟨0, _⟩ => show win1_1.index t (0 : Fin 3) * 128 + 1 * (y 0).val = (y 0).val; rw [e0]; omega
  | ⟨1, _⟩ => show win1_1.index t (1 : Fin 3) * 1 + 1 * (y 1).val = (y 1).val; rw [e1]; omega
  | ⟨2, _⟩ => show win1_1.index t (2 : Fin 3) * 256 + 1 * (y 2).val = (y 2).val; rw [e2]; omega

/-- The window of per-graph sums of squares likewise. -/
theorem sumSqs_eq (c : Dev nD) (t : Fin cfg1.N) :
    (iblk1 V c 2 t : Vec Ideal S128x1x256 .f32) = (V c main_v0_2 : S128x1x256.Idx → EReal) := by
  obtain ⟨-, -, -, ⟨e0, e1, e2⟩, -⟩ := idx_facts t
  funext y
  unfold iblk1
  rw [View.read_apply]
  show V c main_v0_2 _ = V c main_v0_2 y
  congr 1
  funext a
  apply Fin.ext
  match a with
  | ⟨0, _⟩ => show win1_2.index t (0 : Fin 3) * 128 + 1 * (y 0).val = (y 0).val; rw [e0]; omega
  | ⟨1, _⟩ => show win1_2.index t (1 : Fin 3) * 1 + 1 * (y 1).val = (y 1).val; rw [e1]; omega
  | ⟨2, _⟩ => show win1_2.index t (2 : Fin 3) * 256 + 1 * (y 2).val = (y 2).val; rw [e2]; omega

/-- Each of the four row windows is its whole [1, 256] array at every point. -/
theorem gamma_eq (c : Dev nD) (t : Fin cfg1.N) :
    (iblk1 V c 3 t : Vec Ideal S1x256 .f32) = (V c main_arg3 : S1x256.Idx → EReal) := by
  obtain ⟨-, -, -, -, ⟨e0, e1⟩, -⟩ := idx_facts t
  funext y
  unfold iblk1
  rw [View.read_apply]
  show V c main_arg3 _ = V c main_arg3 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem beta_eq (c : Dev nD) (t : Fin cfg1.N) :
    (iblk1 V c 4 t : Vec Ideal S1x256 .f32) = (V c main_arg4 : S1x256.Idx → EReal) := by
  obtain ⟨-, -, -, -, -, ⟨e0, e1⟩, -⟩ := idx_facts t
  funext y
  unfold iblk1
  rw [View.read_apply]
  show V c main_arg4 _ = V c main_arg4 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

theorem lnGamma_eq (c : Dev nD) (t : Fin cfg1.N) :
    (iblk1 V c 5 t : Vec Ideal S1x256 .f32) = (V c main_arg5 : S1x256.Idx → EReal) := by
  obtain ⟨-, -, -, -, -, -, ⟨e0, e1⟩, -⟩ := idx_facts t
  funext y
  unfold iblk1
  rw [View.read_apply]
  show V c main_arg5 _ = V c main_arg5 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

theorem lnBeta_eq (c : Dev nD) (t : Fin cfg1.N) :
    (iblk1 V c 6 t : Vec Ideal S1x256 .f32) = (V c main_arg6 : S1x256.Idx → EReal) := by
  obtain ⟨-, -, -, -, -, -, -, ⟨e0, e1⟩⟩ := idx_facts t
  funext y
  unfold iblk1
  rw [View.read_apply]
  show V c main_arg6 _ = V c main_arg6 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

/-- The second pass of the arrays the region finds, as one function of the output's coordinates. -/
abbrev result (c : Dev nD) : Fin 128 → Fin 256 → Fin 256 → EReal :=
  outPlain (at3 (V c main_v0_0 : S128x256x256.Idx → EReal))
    (mid (V c main_v0_1 : S128x1x256.Idx → EReal)) (mid (V c main_v0_2 : S128x1x256.Idx → EReal))
    (row (V c main_arg3 : S1x256.Idx → EReal)) (row (V c main_arg4 : S1x256.Idx → EReal))
    (row (V c main_arg5 : S1x256.Idx → EReal)) (row (V c main_arg6 : S1x256.Idx → EReal))

/-- WHAT POINT t WRITES BACK is block t of the second pass of the arrays as the region finds them. -/
theorem flushed_eq (c : Dev nD) (t : Fin cfg1.N) :
    (dat1 V c).flushed 7 t = ((cfg1.win 7).blk t).view.read (Elt Ideal) (arr3 (result V c)) := by
  show (cfg1.win 7).cut (grid1.coords t) ((dat1 V c).after 7 t) = _
  rw [after1_7]
  unfold out1_7
  rw [View.canon_unit_zero hz3]
  simp only [View.ld_unit_zero (S := S1x256x256) hz3, View.ld_unit_zero (S := S128x1x256) hz3,
    View.ld_unit_zero (S := S1x256) hz2]
  obtain ⟨⟨e0, e1, e2⟩, -⟩ := idx_facts t
  funext j
  obtain ⟨u, n, o, rfl⟩ : ∃ (u : Fin 1) (n o : Fin 256), j = ix3 u n o := ⟨j 0, j 1, j 2, eq_ix3 j⟩
  have hu : u.val = 0 := by omega
  rw [View.read_apply]
  have hemb : ((cfg1.win 7).blk t).view.emb (ix3 u n o) = ix3 (graphOf t) n o := by
    funext a
    apply Fin.ext
    match a with
    | ⟨0, _⟩ => show win1_7.index t (0 : Fin 3) * 1 + 1 * u.val = t.val; rw [e0, hu]; omega
    | ⟨1, _⟩ => show win1_7.index t (1 : Fin 3) * 256 + 1 * n.val = n.val; rw [e1]; omega
    | ⟨2, _⟩ => show win1_7.index t (2 : Fin 3) * 256 + 1 * o.val = o.val; rw [e2]; omega
  rw [hemb]
  exact stored_apply (iblk1 V c 0 t) (iblk1 V c 1 t) (iblk1 V c 2 t) (iblk1 V c 3 t) (iblk1 V c 4 t) (iblk1 V c 5 t)
    (iblk1 V c 6 t) (at3 (V c main_v0_0 : S128x256x256.Idx → EReal))
    (mid (V c main_v0_1 : S128x1x256.Idx → EReal)) (mid (V c main_v0_2 : S128x1x256.Idx → EReal))
    (row (V c main_arg3 : S1x256.Idx → EReal)) (row (V c main_arg4 : S1x256.Idx → EReal))
    (row (V c main_arg5 : S1x256.Idx → EReal)) (row (V c main_arg6 : S1x256.Idx → EReal)) (graphOf t)
    (fun n o => tile_apply V c t (0 : Fin 1) n o)
    (congrArg mid (sums_eq V c t)) (congrArg mid (sumSqs_eq V c t))
    (congrArg row (gamma_eq V c t)) (congrArg row (beta_eq V c t))
    (congrArg row (lnGamma_eq V c t)) (congrArg row (lnBeta_eq V c t)) u n o

/-- An index of the output is in point t's block iff each coordinate is in the block's range on its axis. -/
theorem mem_blk (t : Fin cfg1.N) (i : S128x256x256.Idx) :
    i ∈ ((cfg1.win 7).blk t).view.set
      ↔ ∀ a : Fin 3, win1_7.index t a * S1x256x256.size a ≤ (i a).val
          ∧ (i a).val < win1_7.index t a * S1x256x256.size a + S1x256x256.size a := by
  show i ∈ ((View.whole main_v1).slice (win1_7.rect t)).set ↔ _
  rw [View.set_slice_whole, Rect.mem_set_unit]
  exact Iff.rfl

/-- Every index of the output is in the block of the point of its leading coordinate. -/
theorem covered (i : S128x256x256.Idx) :
    ∃ t : Fin cfg1.N, (cfg1.win 7).flush t = true ∧ i ∈ ((cfg1.win 7).blk t).view.set := by
  have h0 : (i 0).val < 128 := (i 0).isLt
  have h1 : (i 1).val < 256 := (i 1).isLt
  have h2 : (i 2).val < 256 := (i 2).isLt
  have hN : cfg1.N = 128 := N_1
  refine ⟨⟨(i 0).val, by rw [hN]; exact h0⟩, flush1_7 _, ?_⟩
  rw [mem_blk]
  obtain ⟨⟨e0, e1, e2⟩, -⟩ := idx_facts ⟨(i 0).val, by rw [hN]; exact h0⟩
  intro a
  match a with
  | ⟨0, _⟩ =>
    show win1_7.index _ (0 : Fin 3) * 1 ≤ (i 0).val ∧ (i 0).val < win1_7.index _ (0 : Fin 3) * 1 + 1
    rw [e0]; show (i 0).val * 1 ≤ (i 0).val ∧ (i 0).val < (i 0).val * 1 + 1; omega
  | ⟨1, _⟩ =>
    show win1_7.index _ (1 : Fin 3) * 256 ≤ (i 1).val ∧ (i 1).val < win1_7.index _ (1 : Fin 3) * 256 + 256
    rw [e1]; omega
  | ⟨2, _⟩ =>
    show win1_7.index _ (2 : Fin 3) * 256 ≤ (i 2).val ∧ (i 2).val < win1_7.index _ (2 : Fin 3) * 256 + 256
    rw [e2]; omega

/-- The output array ends holding the plain batch normalisation followed by the layer normalisation. -/
theorem out_arr (c : Dev nD) :
    ((dat1 V c).arrAt 7 cfg1.N : S128x256x256.Idx → EReal)
      = arr3 (outPlain (at3 (V c main_v0_0 : S128x256x256.Idx → EReal))
          (mid (V c main_v0_1 : S128x1x256.Idx → EReal)) (mid (V c main_v0_2 : S128x1x256.Idx → EReal))
          (row (V c main_arg3 : S1x256.Idx → EReal)) (row (V c main_arg4 : S1x256.Idx → EReal))
          (row (V c main_arg5 : S1x256.Idx → EReal)) (row (V c main_arg6 : S1x256.Idx → EReal))) :=
  (dat1 V c).arrAt_eq_of_cover 7 (arr3 (result V c)) (fun t _ => flushed_eq V c t) covered

end Cert.ReferenceIdeal.NormValue

end
-- ==== Proof.RValue.lean ====
/-
  The reference program as one function of its arguments: the result array after both regions is the layer
  normalisation of the plain batch normalisation of the convolution, the statistics being the convolution's own
  column sums. The first region reads the arguments as launched; the second reads what the first left and four
  arguments untouched since the launch.
-/
import proofs.«119475_g2000006224315535_pallasbulk_996_2_alg».proof.Proof.RRun
import proofs.«119475_g2000006224315535_pallasbulk_996_2_alg».proof.Proof.RConv
import proofs.«119475_g2000006224315535_pallasbulk_996_2_alg».proof.Proof.RNorm

set_option maxRecDepth 16384

noncomputable section

open Idealize.ShloMosaic Idealize.ShloMosaic.TcCoe Idealize.SL.Sem Idealize.ShloMosaic.ValueIdx

namespace Cert.ReferenceIdeal.Whole

open Cert.ReferenceIdeal Cert.ReferenceIdeal.Gen Cert.Gcn

variable (m : (ℓ : Loc nD τ sig) → Buf (Elt Ideal) ℓ) (ρ : Dev nD → PrngReg)

/-- The argument arrays as functions of coordinates. -/
abbrev xs (c : Dev nD) := at3 (m ((c : Thread nD τ).loc main_arg0) : S128x256x128.Idx → EReal)
abbrev adj (c : Dev nD) := at3 (m ((c : Thread nD τ).loc main_arg1) : S128x256x256.Idx → EReal)
abbrev wt (c : Dev nD) := at2 (m ((c : Thread nD τ).loc main_arg2) : S128x256.Idx → EReal)
abbrev bnG (c : Dev nD) := row (m ((c : Thread nD τ).loc main_arg3) : S1x256.Idx → EReal)
abbrev bnB (c : Dev nD) := row (m ((c : Thread nD τ).loc main_arg4) : S1x256.Idx → EReal)
abbrev lnG (c : Dev nD) := row (m ((c : Thread nD τ).loc main_arg5) : S1x256.Idx → EReal)
abbrev lnB (c : Dev nD) := row (m ((c : Thread nD τ).loc main_arg6) : S1x256.Idx → EReal)

/-- The four arguments the second region reads are as launched when it is entered. -/
theorem in_bnG (c : Dev nD) : (V1 m ρ c main_arg3 : S1x256.Idx → EReal) = m ((c : Thread nD τ).loc main_arg3) :=
  ((W2_arr m ρ c 3).trans (((dat1 (V1 m ρ) c).arrAt_in 3 rfl _).trans (A_eq1 (V1 m ρ) c 3))).symm.trans (W2_main_arg3 m ρ c)
theorem in_bnB (c : Dev nD) : (V1 m ρ c main_arg4 : S1x256.Idx → EReal) = m ((c : Thread nD τ).loc main_arg4) :=
  ((W2_arr m ρ c 4).trans (((dat1 (V1 m ρ) c).arrAt_in 4 rfl _).trans (A_eq1 (V1 m ρ) c 4))).symm.trans (W2_main_arg4 m ρ c)
theorem in_lnG (c : Dev nD) : (V1 m ρ c main_arg5 : S1x256.Idx → EReal) = m ((c : Thread nD τ).loc main_arg5) :=
  ((W2_arr m ρ c 5).trans (((dat1 (V1 m ρ) c).arrAt_in 5 rfl _).trans (A_eq1 (V1 m ρ) c 5))).symm.trans (W2_main_arg5 m ρ c)
theorem in_lnB (c : Dev nD) : (V1 m ρ c main_arg6 : S1x256.Idx → EReal) = m ((c : Thread nD τ).loc main_arg6) :=
  ((W2_arr m ρ c 6).trans (((dat1 (V1 m ρ) c).arrAt_in 6 rfl _).trans (A_eq1 (V1 m ρ) c 6))).symm.trans (W2_main_arg6 m ρ c)

/-- The convolution of the batch, from the arguments. -/
abbrev conv3 (c : Dev nD) : Fin 128 → Fin 256 → Fin 256 → EReal := pre (xs m c) (adj m c) (wt m c)

/-- What the first region leaves: the convolution, its column sums, its column sums of squares. -/
theorem mid_pre (c : Dev nD) : (V1 m ρ c main_v0_0 : S128x256x256.Idx → EReal) = arr3 (conv3 m c) :=
  (W1_arr m ρ c 3).trans (ConvValue.pre_arr (V0 m ρ) c)
theorem mid_psum (c : Dev nD) :
    (V1 m ρ c main_v0_1 : S128x1x256.Idx → EReal) = arr3 (fun b (_ : Fin 1) o => colSum (conv3 m c) b o) :=
  (W1_arr m ρ c 4).trans (ConvValue.psum_arr (V0 m ρ) c)
theorem mid_psumsq (c : Dev nD) :
    (V1 m ρ c main_v0_2 : S128x1x256.Idx → EReal) = arr3 (fun b (_ : Fin 1) o => colSumSq (conv3 m c) b o) :=
  (W1_arr m ρ c 5).trans (ConvValue.psumsq_arr (V0 m ρ) c)

/-- The result array at the last boundary: the second pass with the plain batch normalisation, over the
    convolution and its own statistics. -/
theorem result (c : Dev nD) :
    (W2 m ρ c (Proc.devRef .tc main_v1) : S128x256x256.Idx → EReal)
      = arr3 (outPlain (conv3 m c) (colSum (conv3 m c)) (colSumSq (conv3 m c)) (bnG m c) (bnB m c) (lnG m c) (lnB m c)) := by
  refine ((W2_arr m ρ c 7).trans (NormValue.out_arr (V1 m ρ) c)).trans ?_
  rw [mid_pre, mid_psum, mid_psumsq, in_bnG, in_bnB, in_lnG, in_lnB]
  rfl

end Cert.ReferenceIdeal.Whole

end
-- ==== Proof.Algebra.lean ====
/-
  The folded and the plain batch normalisation agree on real data.

  Over the extended reals x · (a + b) = x · a + x · b can fail at the infinities, so the identity
  P · (γ · r) + (β − mean · (γ · r)) = ((P − mean) · r) · γ + β is proved for REAL P, mean, r, γ, β. That the
  batch statistics of a real array are real and that r = 1/√(var + ε) is real needs var + ε > 0: the variance
  (Σ p²)/N − ((Σ p)/N)² of N = 128 · 256 reals is not negative (Cauchy–Schwarz), and ε > 0.
  The convolution of real features, adjacency and weights is real: a degree is a finite sum of reals, its
  reciprocal square root is taken only where it is positive, and the rest is sums of products.
-/
import proofs.«119475_g2000006224315535_pallasbulk_996_2_alg».proof.Proof.Spec
import Idealize.ShloMosaic.PureOps.Ideal.Laws
import Mathlib.Algebra.Order.Chebyshev
import Mathlib.Data.Fintype.BigOperators
import Mathlib.Data.EReal.Operations
import Mathlib.Tactic.Linarith
import Mathlib.Tactic.Ring
import Mathlib.Tactic.NormNum

noncomputable section

namespace Cert.Gcn

open Idealize.ShloMosaic

/-- An extended real that is a real number. -/
def Real1 (x : EReal) : Prop := x ≠ ⊤ ∧ x ≠ ⊥

/-! ## Reals among the extended reals are closed under the field operations -/

/-- A real extended real is the coercion of a real number. -/
theorem Real1.exists_coe {x : EReal} (h : Real1 x) : ∃ r : ℝ, x = (r : EReal) :=
  ⟨x.toReal, (EReal.coe_toReal h.1 h.2).symm⟩

theorem real1_coe (r : ℝ) : Real1 (r : EReal) := ⟨EReal.coe_ne_top r, EReal.coe_ne_bot r⟩

theorem real1_zero : Real1 (0 : EReal) := real1_coe 0

theorem Real1.add {x y : EReal} (hx : Real1 x) (hy : Real1 y) : Real1 (x + y) := by
  obtain ⟨a, rfl⟩ := hx.exists_coe
  obtain ⟨c, rfl⟩ := hy.exists_coe
  rw [← EReal.coe_add]
  exact real1_coe _

theorem Real1.mul {x y : EReal} (hx : Real1 x) (hy : Real1 y) : Real1 (x * y) := by
  obtain ⟨a, rfl⟩ := hx.exists_coe
  obtain ⟨c, rfl⟩ := hy.exists_coe
  rw [← EReal.coe_mul]
  exact real1_coe _

theorem Real1.sub {x y : EReal} (hx : Real1 x) (hy : Real1 y) : Real1 (x - y) := by
  obtain ⟨a, rfl⟩ := hx.exists_coe
  obtain ⟨c, rfl⟩ := hy.exists_coe
  rw [← EReal.coe_sub]
  exact real1_coe _

/-- A finite sum of reals is real. -/
theorem real1_sum {ι : Type} (s : Finset ι) (f : ι → EReal) (h : ∀ i ∈ s, Real1 (f i)) :
    Real1 (∑ i ∈ s, f i) :=
  Finset.sum_induction f Real1 (fun _ _ => Real1.add) real1_zero h

/-- The coercion of the reals commutes with finite sums. -/
theorem ereal_coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The convolution of real data -/

theorem real1_deg {A : Fin 256 → Fin 256 → EReal} (hA : ∀ n k, Real1 (A n k)) (n : Fin 256) :
    Real1 (deg A n) :=
  real1_sum _ _ fun k _ => hA n k

/-- The reciprocal square root of a degree is taken where the degree is positive, and is 0 elsewhere: real
    either way. -/
theorem real1_dinv {A : Fin 256 → Fin 256 → EReal} (hA : ∀ n k, Real1 (A n k)) (n : Fin 256) :
    Real1 (dinv A n) := by
  unfold dinv
  rw [Ideal.ofBits_zero_f32]
  obtain ⟨d, hd⟩ := (real1_deg hA n).exists_coe
  rw [hd]
  by_cases h : (0 : ℝ) < d
  · have hc : Ideal.cmp .ogt (d : EReal) 0 = 1#1 := by
      have : (0 : EReal) < (d : EReal) := EReal.coe_pos.mpr h
      simp [Ideal.cmp, this]
    rw [hc, ValueIdx.select_one, Ideal.rsqrt_coe, if_neg (not_lt.mpr h.le), if_neg h.ne']
    exact real1_coe _
  · have hc : Ideal.cmp .ogt (d : EReal) 0 = 0#1 := by
      have : ¬ (0 : EReal) < (d : EReal) := fun hh => h (EReal.coe_pos.mp hh)
      simp [Ideal.cmp, this]
    rw [hc, ValueIdx.select_zero]
    exact real1_zero

theorem real1_prop {X : Fin 256 → Fin 128 → EReal} {A : Fin 256 → Fin 256 → EReal}
    (hX : ∀ k f, Real1 (X k f)) (hA : ∀ n k, Real1 (A n k)) (n : Fin 256) (f : Fin 128) :
    Real1 (prop X A n f) :=
  (real1_sum _ _ fun k _ => (hA n k).mul ((hX k f).mul (real1_dinv hA k))).mul (real1_dinv hA n)

theorem real1_conv {X : Fin 256 → Fin 128 → EReal} {A : Fin 256 → Fin 256 → EReal}
    {W : Fin 128 → Fin 256 → EReal} (hX : ∀ k f, Real1 (X k f)) (hA : ∀ n k, Real1 (A n k))
    (hW : ∀ f o, Real1 (W f o)) (n o : Fin 256) : Real1 (conv X A W n o) :=
  real1_sum _ _ fun f _ => (real1_prop hX hA n f).mul (hW f o)

/-- The convolution of real data is real. -/
theorem real_pre {x : Fin 128 → Fin 256 → Fin 128 → EReal} {adj : Fin 128 → Fin 256 → Fin 256 → EReal}
    {w : Fin 128 → Fin 256 → EReal} (hx : ∀ b k f, Real1 (x b k f)) (ha : ∀ b n k, Real1 (adj b n k))
    (hw : ∀ f o, Real1 (w f o)) (b : Fin 128) (n o : Fin 256) : Real1 (pre x adj w b n o) :=
  real1_conv (hx b) (ha b) hw n o

/-! ## The constants -/

/-- The averaging constant is the real 2⁻¹⁵ = 1/32768. -/
theorem invCount_eq : invCount = ((1 / 32768 : ℝ) : EReal) := by
  unfold invCount
  simp [Ideal.ofBits, Ideal.ieee, -EReal.coe_mul]; norm_num

/-- The stabiliser is a positive real. -/
theorem eps_eq : ∃ e : ℝ, 0 < e ∧ eps = (e : EReal) := by
  refine ⟨10995116 / 2 ^ 40, by norm_num, ?_⟩
  unfold eps
  simp [Ideal.ofBits, Ideal.ieee, -EReal.coe_mul]; norm_num

/-! ## The variance of real numbers is not negative -/

/-- Cauchy–Schwarz over the 128 · 256 = 32768 entries: the second moment is at least the squared mean. -/
theorem var_nonneg (p : Fin 128 → Fin 256 → ℝ) :
    0 ≤ (∑ b, ∑ n, p b n * p b n) * (1 / 32768) -
      (∑ b, ∑ n, p b n) * (1 / 32768) * ((∑ b, ∑ n, p b n) * (1 / 32768)) := by
  have h := sq_sum_le_card_mul_sum_sq (s := (Finset.univ : Finset (Fin 128 × Fin 256)))
    (f := fun x => p x.1 x.2)
  rw [Fintype.sum_prod_type' (fun b n => p b n), Fintype.sum_prod_type' (fun b n => p b n ^ 2)] at h
  have hc : ((Finset.univ : Finset (Fin 128 × Fin 256)).card : ℝ) = 32768 := by
    simp
  rw [hc] at h
  have hq : (∑ b, ∑ n, p b n * p b n) = ∑ b, ∑ n, p b n ^ 2 := by
    simp only [sq]
  rw [hq]
  linarith

/-! ## The batch statistics of a real array -/

/-- Per feature, the batch mean and the reciprocal standard deviation of a real array are real: the variance
    is that of the 32768 reals under the feature, so not negative, and the stabiliser is positive. -/
theorem stats_real {P : Fin 128 → Fin 256 → Fin 256 → EReal} (hP : ∀ b n o, Real1 (P b n o)) (o : Fin 256) :
    ∃ m r : ℝ, mean (colSum P) o = (m : EReal) ∧ rstd (colSum P) (colSumSq P) o = (r : EReal) := by
  choose p hp using fun b n => (hP b n o).exists_coe
  have hS : ∀ b, colSum P b o = ((∑ n, p b n : ℝ) : EReal) := by
    intro b
    unfold colSum
    rw [ereal_coe_sum]
    exact Finset.sum_congr rfl fun n _ => hp b n
  have hQ : ∀ b, colSumSq P b o = ((∑ n, p b n * p b n : ℝ) : EReal) := by
    intro b
    unfold colSumSq
    rw [ereal_coe_sum]
    refine Finset.sum_congr rfl fun n _ => ?_
    rw [hp b n, EReal.coe_mul]
  have hmean : mean (colSum P) o = (((∑ b, ∑ n, p b n) * (1 / 32768) : ℝ) : EReal) := by
    unfold mean
    rw [invCount_eq, EReal.coe_mul, ereal_coe_sum]
    congr 1
    exact Finset.sum_congr rfl fun b _ => hS b
  have hvar : ∃ v : ℝ, 0 ≤ v ∧ var (colSum P) (colSumSq P) o = (v : EReal) := by
    refine ⟨_, var_nonneg p, ?_⟩
    unfold var
    rw [hmean, invCount_eq, EReal.coe_sub, EReal.coe_mul, EReal.coe_mul, ereal_coe_sum]
    congr 2
    exact Finset.sum_congr rfl fun b _ => hQ b
  obtain ⟨v, hv0, hv⟩ := hvar
  obtain ⟨e, he, hee⟩ := eps_eq
  have hpos : 0 < v + e := by linarith
  refine ⟨_, (Real.sqrt (v + e))⁻¹, hmean, ?_⟩
  unfold rstd
  rw [hv, hee, ← EReal.coe_add, Ideal.rsqrt_coe, if_neg (not_lt.mpr hpos.le), if_neg hpos.ne']

/-- On a real array P with its own column sums and sums of squares, and real γ, β, the folded batch
    normalisation is the plain one. -/
theorem bnFolded_eq_bnPlain {P : Fin 128 → Fin 256 → Fin 256 → EReal} (hP : ∀ b n o, Real1 (P b n o))
    {g bb : Fin 256 → EReal} (hg : ∀ o, Real1 (g o)) (hb : ∀ o, Real1 (bb o)) :
    bnFolded P (colSum P) (colSumSq P) g bb = bnPlain P (colSum P) (colSumSq P) g bb := by
  funext b n o
  unfold bnFolded bnPlain
  obtain ⟨m, r, hm, hr⟩ := stats_real hP o
  obtain ⟨p, hp⟩ := (hP b n o).exists_coe
  obtain ⟨γ, hγ⟩ := (hg o).exists_coe
  obtain ⟨β, hβ⟩ := (hb o).exists_coe
  rw [hm, hr, hp, hγ, hβ]
  simp only [← EReal.coe_mul, ← EReal.coe_add, ← EReal.coe_sub]
  congr 1
  ring

/-- So the two second passes agree. -/
theorem outFolded_eq_outPlain {P : Fin 128 → Fin 256 → Fin 256 → EReal} (hP : ∀ b n o, Real1 (P b n o))
    {g bb : Fin 256 → EReal} (hg : ∀ o, Real1 (g o)) (hb : ∀ o, Real1 (bb o)) (lg lb : Fin 256 → EReal) :
    outFolded P (colSum P) (colSumSq P) g bb lg lb = outPlain P (colSum P) (colSumSq P) g bb lg lb := by
  unfold outFolded outPlain
  rw [bnFolded_eq_bnPlain hP hg hb]

end Cert.Gcn

end
-- ==== Proof.Finite.lean ====
/-
  What the precondition says: every entry of the five arrays the arithmetic needs real — features, adjacency,
  weights and the batch normalisation's scale and shift — is a real number. The printed predicate is a
  conjunction of "every |entry| is below +∞", one conjunct per argument array.
-/
import proofs.«119475_g2000006224315535_pallasbulk_996_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Real

open Idealize.ShloMosaic Cert.Pre_finite_inputs

instance : Subsingleton S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value is below +∞ is neither infinity. -/
theorem real_of_abs_lt (x : EReal) (h : Ideal.cmp .olt (max x (-x)) (Ideal.ofBits .f32 0x7F800000#32) = 1#1) :
    x ≠ ⊤ ∧ x ≠ ⊥ := by
  rw [ofBits_inf] at h
  have hlt : max x (-x) < ⊤ := by
    unfold Ideal.cmp at h
    by_contra hn
    simp [hn] at h
  constructor
  · rintro rfl; simp at hlt
  · rintro rfl; simp at hlt

variable [Facts]

/-- Under the precondition the five arrays the arithmetic needs real are real. -/
theorem reals (a0 : FVec Ideal S128x256x128 .f32) (a1 : FVec Ideal S128x256x256 .f32) (a2 : FVec Ideal S128x256 .f32)
    (a3 a4 a5 a6 : FVec Ideal S1x256 .f32)
    (h : fn (F := Ideal) a0 a1 a2 a3 a4 a5 a6 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) := by
  have h0 := congrFun h ValueIdx.ix0
  dsimp only [fn, fn_part1] at h0
  obtain ⟨h5, -⟩ := IntOp.andi_eq_one.1 h0
  obtain ⟨h4, -⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  refine ⟨fun i => ?_, fun i => ?_, fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)
  · exact real_of_abs_lt _ (Host.reduce_andi_all _ _ _ _ _ e3 i)
  · exact real_of_abs_lt _ (Host.reduce_andi_all _ _ _ _ _ e4 i)

end Cert.Pre_finite_inputs.Real

end
-- ==== Proof.Claims.lean ====
/-
  The five claims. The three frames are the generated ones (the reference's from its run with the result
  dropped). The idealization rewrote nothing. For the value claim both runs end with the result array a function
  of the arguments: the kernel's program at the layer normalisation of the FOLDED batch normalisation of the
  convolution, the reference at that of the PLAIN one; the arguments agree, the precondition makes features,
  adjacency, weights, scale and shift real, so the convolution is real and the two batch normalisations are one.
-/
import proofs.«119475_g2000006224315535_pallasbulk_996_2_alg».proof.Defs
import proofs.«119475_g2000006224315535_pallasbulk_996_2_alg».proof.Proof.Gen.Kernel.Frame
import proofs.«119475_g2000006224315535_pallasbulk_996_2_alg».proof.Proof.Gen.Pre_finite_inputs
import proofs.«119475_g2000006224315535_pallasbulk_996_2_alg».proof.Proof.KValue
import proofs.«119475_g2000006224315535_pallasbulk_996_2_alg».proof.Proof.RValue
import proofs.«119475_g2000006224315535_pallasbulk_996_2_alg».proof.Proof.Algebra
import proofs.«119475_g2000006224315535_pallasbulk_996_2_alg».proof.Proof.Finite

set_option maxRecDepth 16384

noncomputable section

open Idealize.ShloMosaic Idealize.ShloMosaic.TcCoe Idealize.SL.Sem Idealize.ShloMosaic.ValueIdx

namespace Cert.Proof.GcnClaims

open Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

theorem preserves : Cert.preserves_Kernel_KernelIdeal := trivial

/-- The two programs end at the same result. -/
theorem algebraic : Cert.algebraic_KernelIdeal_ReferenceIdeal := by
  intro m ρ m' ρ' hpre hagree
  refine ⟨fun c => arr3 (outFolded (Cert.KernelIdeal.Whole.conv3 m c) (colSum (Cert.KernelIdeal.Whole.conv3 m c))
      (colSumSq (Cert.KernelIdeal.Whole.conv3 m c)) (Cert.KernelIdeal.Whole.bnG m c) (Cert.KernelIdeal.Whole.bnB m c)
      (Cert.KernelIdeal.Whole.lnG m c) (Cert.KernelIdeal.Whole.lnB m c)), ?_, ?_⟩
  · exact (θ_run Cert.KernelIdeal.defs _ _).mono
      (fun r h c => ⟨(h c).1.trans (Cert.KernelIdeal.Whole.result m ρ c), (h c).2⟩)
      (Cert.KernelIdeal.Run.run (F := Ideal) m ρ)
  · refine (θ_run Cert.ReferenceIdeal.defs _ _).mono
      (fun r h c => ⟨((h c).1.trans (Cert.ReferenceIdeal.Whole.result m' ρ' c)).trans ?_, (h c).2⟩)
      (Cert.ReferenceIdeal.Run.run (F := Ideal) m' ρ')
    obtain ⟨a0, a1, a2, a3, a4, a5, a6⟩ := hagree c
    obtain ⟨r0, r1, r2, r3, r4⟩ := Cert.Pre_finite_inputs.Real.reals _ _ _ _ _ _ _ (hpre c)
    unfold Cert.ReferenceIdeal.Whole.conv3 Cert.ReferenceIdeal.Whole.xs Cert.ReferenceIdeal.Whole.adj
      Cert.ReferenceIdeal.Whole.wt Cert.ReferenceIdeal.Whole.bnG Cert.ReferenceIdeal.Whole.bnB
      Cert.ReferenceIdeal.Whole.lnG Cert.ReferenceIdeal.Whole.lnB
    rw [a0, a1, a2, a3, a4, a5, a6]
    refine congrArg arr3 (outFolded_eq_outPlain (P := Cert.KernelIdeal.Whole.conv3 m c) ?_ ?_ ?_ _ _).symm
    · exact real_pre (fun b k f => r0 (ix3 b k f)) (fun b n k => r1 (ix3 b n k)) (fun f o => r2 (ix2 f o))
    · exact fun o => r3 (ix2 (0 : Fin 1) o)
    · exact fun o => r4 (ix2 (0 : Fin 1) o)

end Cert.Proof.GcnClaims

end
-- ==== Proof.lean ====
/- A graph-convolution layer — out = LayerNorm(BatchNorm((D^-1/2 A D^-1/2 x) W)) with batch statistics over all
   graphs and nodes — computed in two passes, against a two-pass reference. The first pass (the convolution of
   each graph with its column sums and column sums of squares) is the same arithmetic on both sides, the kernel's
   changes of float format being the identity on exact values. In the second pass the kernel folds the batch
   normalisation into one scale and one shift per feature, P · (γ r) + (β − mean · (γ r)), where the reference
   computes ((P − mean) · r) · γ + β; on real data these agree, and the data are real because the inputs are
   finite and the batch variance is not negative (Cauchy–Schwarz), so that r = 1/√(var + ε) is a real number.
   Proof/Spec.lean states the mathematics; Proof/KConv.lean, KNorm.lean, RConv.lean, RNorm.lean read each region's
   output arrays; Proof/KValue.lean and RValue.lean each program's result; Proof/Algebra.lean the identity;
   Proof/Finite.lean the precondition; Proof/Claims.lean the five claims. -/
import proofs.«119475_g2000006224315535_pallasbulk_996_2_alg».proof.Defs
import proofs.«119475_g2000006224315535_pallasbulk_996_2_alg».proof.Proof.Gen.Kernel
import proofs.«119475_g2000006224315535_pallasbulk_996_2_alg».proof.Proof.Gen.KernelIdeal
import proofs.«119475_g2000006224315535_pallasbulk_996_2_alg».proof.Proof.Gen.ReferenceIdeal
import proofs.«119475_g2000006224315535_pallasbulk_996_2_alg».proof.Proof.Gen.Pre_finite_inputs
import proofs.«119475_g2000006224315535_pallasbulk_996_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
